-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S32x32 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S4096x32x128 : Shape := ⟨3, ![4096, 32, 128]⟩
abbrev S128x32x128 : Shape := ⟨3, ![128, 32, 128]⟩
abbrev S1x32 : Shape := ⟨2, ![1, 32]⟩
abbrev S32 : Shape := ⟨1, ![32]⟩
abbrev S1x32x1 : Shape := ⟨3, ![1, 32, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S4096, .f32⟩
  | .hbm, ⟨4, _⟩ => ⟨S4096x32x128, .f32⟩
  | .hbm, ⟨5, _⟩ => ⟨S4096x32x128, .bf16⟩
  | .hbm, ⟨6, _⟩ => ⟨S4096x4096, .bf16⟩
  | .hbm, ⟨7, _⟩ => ⟨S8192x4096, .f32⟩
  | .local _ .vmem, ⟨0, _⟩ => ⟨S128x32x128, .f32⟩
  | .local _ .vmem, ⟨1, _⟩ => ⟨S128x32x128, .f32⟩
  | .local _ .vmem, ⟨2, _⟩ => ⟨S32x32, .f32⟩
  | .local _ .vmem, ⟨3, _⟩ => ⟨S128x32x128, .bf16⟩
  | .local _ .vmem, ⟨4, _⟩ => ⟨S128x32x128, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024, .f32⟩
  | .local _ .vmem, ⟨10, _⟩ => ⟨S1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x4096_S4096x32x128 : S4096x4096.ShapeCasts S4096x32x128
  h_S1x32 : 0 < S1x32.numel
  shapeCasts_S1x32_S32 : S1x32.ShapeCasts S32
  shapeCasts_S32_S1x32x1 : S32.ShapeCasts S1x32x1
  shapeCasts_S1x32x1_S1x32x1 : S1x32x1.ShapeCasts S1x32x1
  broadcasts_S1x32x1_S128x32x128 : S1x32x1.Broadcasts S128x32x128
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  bitsLt_bf16_f32 : FTy.bits .bf16 < FTy.bits .f32
  packedbf16_S128x32x128_S128x32x128_0_0_0 : (Rect.unit (s := S128x32x128) ![0, 0, 0] S128x32x128.size inb_S128x32x128_S128x32x128_0_0_0).PackedRows (EltTy.packing .bf16)
  shapeCasts_S4096x32x128_S4096x4096 : S4096x32x128.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1x32.size a ≤ S32x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S4096x32x128.size a
  hwx0_0 : ∀ i : grid0.Coords, EltTy.bits .f32 = 32 ∨ (Rect.block (s := S4096x32x128) S128x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x128.size a ≤ S4096x32x128.size a
  hwx0_2 : ∀ i : grid0.Coords, EltTy.bits .bf16 = 32 ∨ (Rect.block (s := S4096x32x128) S128x32x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x1x32x1 : Shape := ⟨4, ![32, 1, 32, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S8192x32x128, .f32⟩
  | .hbm, ⟨16, _⟩ => ⟨S8192x32x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S8192x32x128, .f32⟩
  | .hbm, ⟨24, _⟩ => ⟨S8192x32x128, .f32⟩
  | .hbm, ⟨25, _⟩ => ⟨S8192x32x128, .f32⟩
  | .hbm, ⟨26, _⟩ => ⟨S8192x32x128, .f32⟩
  | .hbm, ⟨27, _⟩ => ⟨S8192x4096, .f32⟩
  | .hbm, ⟨28, _⟩ => ⟨S32x128x32x128, .f32⟩
  | .hbm, ⟨29, _⟩ => ⟨S32x1x32x1, .f32⟩
  | .hbm, ⟨30, _⟩ => ⟨S32x128x32x128, .f32⟩
  | .hbm, ⟨31, _⟩ => ⟨S32x128x32x128, .f32⟩
  | .hbm, ⟨32, _⟩ => ⟨S4096x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KB.R0.lean ====
/-
  The dequantization region (the first kernel region of the program), at a parameter V: the contents of the core's
  unscoped buffers when the region is entered. Its grid has 32 points; point t stages rows 128 t .. 128 t + 127 of
  the weight, viewed as [4096, 32, 128], and the whole 32 x 32 scale array (fetched once, at the first point), and
  its body stores over the output block the weight block times row t of the scales broadcast along the two outer
  axes. The body's one store covers the block, so the block after the body is a function of the two input blocks
  and of the point.
-/
import proofs.«145981_j27745488732276_1_alg».proof.Proof.Gen.Kernel.Launch
import proofs.«145981_j27745488732276_1_alg».proof.Proof.Gen.Kernel.Skeleton
import proofs.«145981_j27745488732276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the point fetches it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output block -/

/-- The whole 128 x 32 x 128 block. -/
abbrev r0_blk : Rect S128x32x128 := Rect.unit (s := S128x32x128) ![0, 0, 0] S128x32x128.size inb_S128x32x128_S128x32x128_0_0_0
/-- Row (i 0) of the 32 x 32 scale array. -/
abbrev r0_row (i : grid0.Coords) : Rect S32x32 := Rect.unit (s := S32x32) (k0_off1 i) S1x32.size (k0_off1_inb i)

/-- The output block after the body at grid coordinates i, from the weight block x0 and the scale array x1: its one
    store as a piece. -/
def out0_2 (i : grid0.Coords) (x0 : Vec F S128x32x128 .f32) (x1 : Vec F S32x32 .f32) : Vec F S128x32x128 .bf16 :=
  View.canon [⟨r0_blk, k0_pay1 (View.ld x1 (r0_row i)) (View.ld x0 r0_blk)⟩]

/-- The store covers the block. -/
theorem cover0_2 (p0 : Vec F S128x32x128 .bf16) (y : S128x32x128.Idx) :
    ∃ pc ∈ ([⟨r0_blk, p0⟩] : List (View.Piece (Elt F) S128x32x128 .bf16)), y ∈ pc.1.set :=
  View.cover_of_tiled [⟨r0_blk, p0⟩] S128x32x128.size (by rfl) y

/-! ## The body's triple -/

set_option maxHeartbeats 2000000 in
/-- On whole staging memrefs, the inputs' at contents x0 and x1 and the output's at anything, the body runs to the
    continuation holding the inputs' as they were and the output's at out0_2 of them. -/
theorem sound_kernel0 (c : Dev nD) (E : Set ℕ) (i : grid0.Coords) (arg1 : Memref sig .tc .vmem S128x32x128 .f32) (harg1 : arg1.IsWhole) (arg2 : Memref sig .tc .vmem S32x32 .f32) (harg2 : arg2.IsWhole) (arg3 : Memref sig .tc .vmem S128x32x128 .bf16) (harg3 : arg3.IsWhole)
    (x0 : Vec F S128x32x128 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point t each input's buffer at its block and the
    output's at out0_2 of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Defs.lean ====
/-
  The accumulating matrix-product region (the second kernel region of the program), what its three case runs
  share. The region's grid is 8 x 4 x 4 points (i, j, k), k fastest: point t has k = t % 4. Its body resets the
  1024 x 1024 accumulator held in scratch when k = 0, adds the product of the point's x block and weight block to
  it at every point, and when k = 3 stores the accumulator plus the broadcast bias block into the output window,
  which is written back at exactly those points and is idle at the others.
  Stated at a parameter V, the contents of the core's unscoped buffers when the region is entered.
-/
import proofs.«145981_j27745488732276_1_alg».proof.Proof.Gen.Kernel.Launch
import proofs.«145981_j27745488732276_1_alg».proof.Proof.Gen.Kernel.Skeleton
import proofs.«145981_j27745488732276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the point fetches it:
    where it is not fetched the block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (by decide +kernel) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (by decide +kernel) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (by decide +kernel) (fun _ _ _ => rfl) (fun t => by rw [hafter]; unfold Dat.blockOf iblk1; rw [hA]; try rfl) t d).trans
    (by unfold Dat.fetched Dat.blockOf iblk1; rw [hA]; try rfl)

end AtV

/-! ## The body's two branch conditions, decided over the grid -/

/-- The accumulator is reset: k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output block is stored: k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle and is not written back; where it is, live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
/-- One staging buffer of the output window and the accumulator, as views through which contents are stated. -/
abbrev VO1_3 : View sig .tc .vmem S1024x1024 .f32 := (Memref.whole cc1_stg3_0 : Memref sig .tc .vmem S1024x1024 .f32).view
abbrev VS1 : View sig .tc .vmem S1024x1024 .f32 := scM1.view

/-- The region's scoped buffers that are no staging buffer of its own: the other region's five staging buffers, each
    whole at some contents (this region never touches them), and the accumulator, here at a statement S of its own. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The five alone. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem scopedWith_split (c : Dev nD) (S : sProp 𝕄) : scopedWith (F := F) c S ⊢ iprop(otherScoped (F := F) c ∗ S) := by
  unfold scopedWith otherScoped
  iintro ⟨Ha, Hb, Hc, Hd, He, HS⟩
  isplitr [HS]
  · isplitl [Ha]; · iexact Ha
    isplitl [Hb]; · iexact Hb
    isplitl [Hc]; · iexact Hc
    isplitl [Hd]; · iexact Hd
    iexact He
  iexact HS

theorem scopedWith_join (c : Dev nD) (S : sProp 𝕄) : iprop(otherScoped (F := F) c ∗ S) ⊢ scopedWith (F := F) c S := by
  unfold scopedWith otherScoped
  iintro ⟨⟨Ha, Hb, Hc, Hd, He⟩, HS⟩
  isplitl [Ha]; · iexact Ha
  isplitl [Hb]; · iexact Hb
  isplitl [Hc]; · iexact Hc
  isplitl [Hd]; · iexact Hd
  isplitl [He]; · iexact He
  iexact HS

/-- The region's scoped rest and the generator register, with the accumulator as a memref owned at some contents:
    what the region is entered with, and what any later invariant gives back. -/
theorem PhiA1_eq (c : Dev nD) :
    (Pipeline.ΦA spec1 c : sProp 𝕄)
      = iprop(scopedWith (F := F) c (iprop(∃ d, owns (c : Thread nD τ) scM1 fullShare d)) ∗ (∃ r, prngReg c r)) := by
  unfold Pipeline.ΦA scopedWith; rw [scopedRest1_eq]; simp only [scM1, owns_whole]; try rfl

end Cert.Kernel.Hand

end
-- ==== Proof.KB.R1RunA.lean ====
/-
  The matrix-product body at a point with k = 0 (and k ≠ 3): the accumulator, found at anything, is reset to zero and
  the product of the point's two blocks added to it; the bias block and the output buffer are not touched. The pieces
  the accumulator ends with are found by running the body symbolically.
-/
import proofs.«145981_j27745488732276_1_alg».proof.Proof.KB.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) :
    Σ' (L3 : List (View.Piece (Elt F) S1024x1024 .f32)), { LS : List (View.Piece (Elt F) S1024x1024 .f32) //
      ∀ (x2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KB.R1RunB.lean ====
/-
  The matrix-product body at a point with k = 1 or k = 2: the product of the point's two blocks is added to the
  accumulator, which holds what the point before left; the bias block and the output buffer are not touched.
-/
import proofs.«145981_j27745488732276_1_alg».proof.Proof.KB.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) :
    Σ' (L3 : List (View.Piece (Elt F) S1024x1024 .f32)), { LS : List (View.Piece (Elt F) S1024x1024 .f32) //
      ∀ (x2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KB.R1RunC.lean ====
/-
  The matrix-product body at a point with k = 3: the product of the point's two blocks is added to the accumulator,
  which holds what the point before left, and the accumulator plus the broadcast bias block is stored over the
  output buffer, found at anything.
-/
import proofs.«145981_j27745488732276_1_alg».proof.Proof.KB.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KB.R1.lean ====
/-
  The accumulating matrix-product region: what its output window's staging buffer and its accumulator hold after
  each grid point, by recursion on the point (outsAt1); the region's invariant, which carries the accumulator's
  contents from a point to the next (PhiS1); the pipeline's proof data (dat1); and the body obligation, the point's
  case decided by k = t % 4 in closed form. Stated at a parameter V, the contents of the core's unscoped buffers
  when the region is entered.
-/
import proofs.«145981_j27745488732276_1_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's staging buffer: its pieces read back (none: a placeholder nothing consults, the window being idle and not written back there). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) : Vec F S1024x1024 .f32 :=
  VO1_3.read (Elt F) (VO1_3.writes (Elt F) VO1_3.junk (kernelRun1_A c i arg3 harg3 arg4 harg4 arg5 harg5 arg6 harg6 arg7 harg7 hc0 hc1 x0 x1).1)

/-- Case A's pieces for the accumulator cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 arg7 harg7 hc0 hc1 x0 x1).2.1, y ∈ pc.1.set :=
  View.cover_of_tiledL (kernelRun1_A c i arg3 harg3 arg4 harg4 arg5 harg5 arg6 harg6 arg7 harg7 hc0 hc1 x0 x1).2.1 S1024x1024.size (by sl_kernel_rfl) y

/-- What case A leaves in the accumulator: its pieces read back. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) : Vec F S1024x1024 .f32 :=
  VS1.read (Elt F) (VS1.writes (Elt F) VS1.junk (kernelRun1_A c i arg3 harg3 arg4 harg4 arg5 harg5 arg6 harg6 arg7 harg7 hc0 hc1 x0 x1).2.1)

/-- What case B leaves in the output window's staging buffer: its pieces read back (none: a placeholder nothing consults, the window being idle and not written back there). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 xs).1)

/-- Case B's pieces for the accumulator cover it. -/
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) (y : S1024x1024.Idx) :
    ∃ pc ∈ (kernelRun1_B c i arg3 harg3 arg4 harg4 arg5 harg5 arg6 harg6 arg7 harg7 hc0 hc1 x0 x1 xs).2.1, y ∈ pc.1.set :=
  View.cover_of_tiledL (kernelRun1_B c i arg3 harg3 arg4 harg4 arg5 harg5 arg6 harg6 arg7 harg7 hc0 hc1 x0 x1 xs).2.1 S1024x1024.size (by sl_kernel_rfl) y

/-- What case B leaves in the accumulator: its pieces read back. -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 xs).2.1)

/-- The output block's pieces at a point with k = 3 cover it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y

/-- What case C leaves in the output window's staging buffer: its pieces read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs).1)

/-- Case C's pieces for the accumulator cover it. -/
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y

/-- What case C leaves in the accumulator: its pieces read back. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

variable (V : (c : Dev nD) → (b : Ref sig .tc) → Buf (Elt F) ((c : Thread nD τ).loc b))

/-! ## What the output buffer and the accumulator hold after each point -/

/-- After the body at position n: the output window's staging buffer and the accumulator, by the case k = n % 4 selects,
    run at the point's memrefs and input blocks, the accumulator found at what position n - 1 left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: before the first point what the region is entered with (the accumulator at anything);
    afterwards the other scoped buffers at anything, the accumulator at what the point before left, and the
    generator register at some state. -/
def PhiS1 (c : Dev nD) : (n : ℕ) → n ≤ cfg1.N → sProp 𝕄
  | 0, _ => Pipeline.ΦA spec1 c
  | n + 1, hn => iprop(scopedWith (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

/-- The accumulator's ownership handed back by a run, read as contents: pieces that cover it read back the same
    through any view of the buffer. -/
theorem scratch_back (c : Dev nD) (LS : List (View.Piece (Elt F) S1024x1024 .f32)) (hcov : ∀ y : S1024x1024.Idx, ∃ pc ∈ LS, y ∈ pc.1.set) :
    iprop(∃ f, scM1.view.loc (c : Thread nD τ) ↦[scM1.view.set]{fullShare} scM1.view.writes (Elt F) f LS)
      ⊢ (owns (c : Thread nD τ) scM1 fullShare (VS1.read (Elt F) (VS1.writes (Elt F) VS1.junk LS)) : sProp 𝕄) := by
  iintro ⟨%es, HS⟩
  unfold owns; iexists _; isplitr
  swap; · iexact HS
  ipureintro; exact View.read_writes_of_cover _ _ _ _ _ hcov

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    have hrun := (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.2
    have hcov := scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)
    by_cases hz : t.val = 0
    · rw [PhiS1_castSucc V c t, PhiS1_zero V c _ _ hz, PhiA1_eq]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      have hrun := (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
      have hcov := scover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
      have hcovO := cover1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ hcovO
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hrun := (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2.2
      have hcov := scover1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨HSc, Hg⟩
  isplitl [HSc]
  · ihave H := (scopedWith_split c _) $$ HSc
    icases H with ⟨HO, HS⟩
    iapply (scopedWith_join c _)
    isplitl [HO]; · iexact HO
    iexists _; iexact HS
  iexact Hg

end Cert.Kernel.Hand

end
-- ==== Proof.KB.Run.lean ====
/-
  The whole run of the program: a reshape of the weight on the host, the dequantization region, a reshape of its
  result on the host, the accumulating matrix-product region. The contents of the core's unscoped buffers at each
  of the five boundaries are a fold from the launch memory (W0 .. W4): a host stretch applies its operations, a
  region leaves its arrays at what its write-backs leave and every other buffer as entered. Every weakly fair
  execution terminates with every unscoped buffer at W4 (run_all); the four argument arrays read back through the
  fold to their launch contents (W4_main_arg0 .. 3), which is the frame claim, and the result array is what the
  second region's write-backs leave (W4_main_v3).
-/
import proofs.«145981_j27745488732276_1_alg».proof.Proof.KB.R0
import proofs.«145981_j27745488732276_1_alg».proof.Proof.KB.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch: the dequantization region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the dequantization region's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: the matrix-product region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the matrix-product region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The arguments end as launched, and the result is the second region's

    No host operation writes an argument; a region reads one through an input window, whose array its write-backs
    leave as entered, or bypasses it. -/

theorem W1_keep (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_keep (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (E3 m) c).arrAt_in 0 rfl _).trans (A_eq1 (E3 m) c 0))
    _ = W2 m c (Proc.devRef .tc main_arg0) := W3_keep m c main_arg0 (by decide)
    _ = W1 m c (Proc.devRef .tc main_arg0) := W2_of_ne m c main_arg0 (by decide)
    _ = W0 m c (Proc.devRef .tc main_arg0) := W1_keep m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_of_ne m c main_arg1 (by decide)
    _ = W0 m c (Proc.devRef .tc main_arg1) := W1_keep m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = W1 m c (Proc.devRef .tc main_arg2) := (W2_arr m c 1).trans (((dat0 (E1 m) c).arrAt_in 1 rfl _).trans (A_eq0 (E1 m) c 1))
    _ = W0 m c (Proc.devRef .tc main_arg2) := W1_keep m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (E3 m) c).arrAt_in 2 rfl _).trans (A_eq1 (E3 m) c 2))
    _ = W2 m c (Proc.devRef .tc main_arg3) := W3_keep m c main_arg3 (by decide)
    _ = W1 m c (Proc.devRef .tc main_arg3) := W2_of_ne m c main_arg3 (by decide)
    _ = W0 m c (Proc.devRef .tc main_arg3) := W1_keep m c main_arg3 (by decide)
    _ = m ((c : Thread nD τ).loc main_arg3) := rfl
/-- The result array holds what the matrix-product region's write-backs leave. -/
theorem W4_main_v3 (c : Dev nD) : W4 m c (Proc.devRef .tc main_v3) = (dat1 (E3 m) c).arrAt 3 cfg1.N := W4_arr m c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W4, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The dequantization region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at W3, left at W4. Its invariant carries the
    accumulator; it is entered with the scoped rest and the generator register and gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hops0_fresh (W0 m)),
    .region (reg0 m),
    .host (hseg hostOps1 hostOps1_sub hops1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the four argument arrays and the result array. -/
theorem run_main : θ_run defs (onTc (τ := τ) (main (F := F))) ⟨m, fun _ => 0, ρ⟩ (fun r => ∀ c : Dev nD,
      r.2.mem ((c.tc : Thread nD τ).loc main_v3) = (dat1 (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The frame claim: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KI.R0.lean ====
/-
  The dequantization region (the first kernel region of the program), at a parameter V: the contents of the core's
  unscoped buffers when the region is entered. Its grid has 32 points; point t stages rows 128 t .. 128 t + 127 of
  the weight, viewed as [4096, 32, 128], and the whole 32 x 32 scale array (fetched once, at the first point), and
  its body stores over the output block the weight block times row t of the scales broadcast along the two outer
  axes. The body's one store covers the block, so the block after the body is a function of the two input blocks
  and of the point.
-/
import proofs.«145981_j27745488732276_1_alg».proof.Proof.Gen.KernelIdeal.Launch
import proofs.«145981_j27745488732276_1_alg».proof.Proof.Gen.KernelIdeal.Skeleton
import proofs.«145981_j27745488732276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the point fetches it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output block -/

/-- The whole 128 x 32 x 128 block. -/
abbrev r0_blk : Rect S128x32x128 := Rect.unit (s := S128x32x128) ![0, 0, 0] S128x32x128.size inb_S128x32x128_S128x32x128_0_0_0
/-- Row (i 0) of the 32 x 32 scale array. -/
abbrev r0_row (i : grid0.Coords) : Rect S32x32 := Rect.unit (s := S32x32) (k0_off1 i) S1x32.size (k0_off1_inb i)

/-- The output block after the body at grid coordinates i, from the weight block x0 and the scale array x1: its one
    store as a piece. -/
def out0_2 (i : grid0.Coords) (x0 : Vec F S128x32x128 .f32) (x1 : Vec F S32x32 .f32) : Vec F S128x32x128 .bf16 :=
  View.canon [⟨r0_blk, k0_pay1 (View.ld x1 (r0_row i)) (View.ld x0 r0_blk)⟩]

/-- The store covers the block. -/
theorem cover0_2 (p0 : Vec F S128x32x128 .bf16) (y : S128x32x128.Idx) :
    ∃ pc ∈ ([⟨r0_blk, p0⟩] : List (View.Piece (Elt F) S128x32x128 .bf16)), y ∈ pc.1.set :=
  View.cover_of_tiled [⟨r0_blk, p0⟩] S128x32x128.size (by rfl) y

/-! ## The body's triple -/

set_option maxHeartbeats 2000000 in
/-- On whole staging memrefs, the inputs' at contents x0 and x1 and the output's at anything, the body runs to the
    continuation holding the inputs' as they were and the output's at out0_2 of them. -/
theorem sound_kernel0 (c : Dev nD) (E : Set ℕ) (i : grid0.Coords) (arg1 : Memref sig .tc .vmem S128x32x128 .f32) (harg1 : arg1.IsWhole) (arg2 : Memref sig .tc .vmem S32x32 .f32) (harg2 : arg2.IsWhole) (arg3 : Memref sig .tc .vmem S128x32x128 .bf16) (harg3 : arg3.IsWhole)
    (x0 : Vec F S128x32x128 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point t each input's buffer at its block and the
    output's at out0_2 of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The accumulating matrix-product region (the second kernel region of the program), what its three case runs
  share. The region's grid is 8 x 4 x 4 points (i, j, k), k fastest: point t has k = t % 4. Its body resets the
  1024 x 1024 accumulator held in scratch when k = 0, adds the product of the point's x block and weight block to
  it at every point, and when k = 3 stores the accumulator plus the broadcast bias block into the output window,
  which is written back at exactly those points and is idle at the others.
  Stated at a parameter V, the contents of the core's unscoped buffers when the region is entered.
-/
import proofs.«145981_j27745488732276_1_alg».proof.Proof.Gen.KernelIdeal.Launch
import proofs.«145981_j27745488732276_1_alg».proof.Proof.Gen.KernelIdeal.Skeleton
import proofs.«145981_j27745488732276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the point fetches it:
    where it is not fetched the block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (by decide +kernel) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (by decide +kernel) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (by decide +kernel) (fun _ _ _ => rfl) (fun t => by rw [hafter]; unfold Dat.blockOf iblk1; rw [hA]; try rfl) t d).trans
    (by unfold Dat.fetched Dat.blockOf iblk1; rw [hA]; try rfl)

end AtV

/-! ## The body's two branch conditions, decided over the grid -/

/-- The accumulator is reset: k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output block is stored: k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle and is not written back; where it is, live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
/-- One staging buffer of the output window and the accumulator, as views through which contents are stated. -/
abbrev VO1_3 : View sig .tc .vmem S1024x1024 .f32 := (Memref.whole cc1_stg3_0 : Memref sig .tc .vmem S1024x1024 .f32).view
abbrev VS1 : View sig .tc .vmem S1024x1024 .f32 := scM1.view

/-- The region's scoped buffers that are no staging buffer of its own: the other region's five staging buffers, each
    whole at some contents (this region never touches them), and the accumulator, here at a statement S of its own. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The five alone. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem scopedWith_split (c : Dev nD) (S : sProp 𝕄) : scopedWith (F := F) c S ⊢ iprop(otherScoped (F := F) c ∗ S) := by
  unfold scopedWith otherScoped
  iintro ⟨Ha, Hb, Hc, Hd, He, HS⟩
  isplitr [HS]
  · isplitl [Ha]; · iexact Ha
    isplitl [Hb]; · iexact Hb
    isplitl [Hc]; · iexact Hc
    isplitl [Hd]; · iexact Hd
    iexact He
  iexact HS

theorem scopedWith_join (c : Dev nD) (S : sProp 𝕄) : iprop(otherScoped (F := F) c ∗ S) ⊢ scopedWith (F := F) c S := by
  unfold scopedWith otherScoped
  iintro ⟨⟨Ha, Hb, Hc, Hd, He⟩, HS⟩
  isplitl [Ha]; · iexact Ha
  isplitl [Hb]; · iexact Hb
  isplitl [Hc]; · iexact Hc
  isplitl [Hd]; · iexact Hd
  isplitl [He]; · iexact He
  iexact HS

/-- The region's scoped rest and the generator register, with the accumulator as a memref owned at some contents:
    what the region is entered with, and what any later invariant gives back. -/
theorem PhiA1_eq (c : Dev nD) :
    (Pipeline.ΦA spec1 c : sProp 𝕄)
      = iprop(scopedWith (F := F) c (iprop(∃ d, owns (c : Thread nD τ) scM1 fullShare d)) ∗ (∃ r, prngReg c r)) := by
  unfold Pipeline.ΦA scopedWith; rw [scopedRest1_eq]; simp only [scM1, owns_whole]; try rfl

end Cert.KernelIdeal.Hand

end
-- ==== Proof.KI.R1RunA.lean ====
/-
  The matrix-product body at a point with k = 0 (and k ≠ 3): the accumulator, found at anything, is reset to zero and
  the product of the point's two blocks added to it; the bias block and the output buffer are not touched. The pieces
  the accumulator ends with are found by running the body symbolically.
-/
import proofs.«145981_j27745488732276_1_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) :
    Σ' (L3 : List (View.Piece (Elt F) S1024x1024 .f32)), { LS : List (View.Piece (Elt F) S1024x1024 .f32) //
      ∀ (x2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R1RunB.lean ====
/-
  The matrix-product body at a point with k = 1 or k = 2: the product of the point's two blocks is added to the
  accumulator, which holds what the point before left; the bias block and the output buffer are not touched.
-/
import proofs.«145981_j27745488732276_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) :
    Σ' (L3 : List (View.Piece (Elt F) S1024x1024 .f32)), { LS : List (View.Piece (Elt F) S1024x1024 .f32) //
      ∀ (x2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.R1RunC.lean ====
/-
  The matrix-product body at a point with k = 3: the product of the point's two blocks is added to the accumulator,
  which holds what the point before left, and the accumulator plus the broadcast bias block is stored over the
  output buffer, found at anything.
-/
import proofs.«145981_j27745488732276_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KI.R1.lean ====
/-
  The accumulating matrix-product region: what its output window's staging buffer and its accumulator hold after
  each grid point, by recursion on the point (outsAt1); the region's invariant, which carries the accumulator's
  contents from a point to the next (PhiS1); the pipeline's proof data (dat1); and the body obligation, the point's
  case decided by k = t % 4 in closed form. Stated at a parameter V, the contents of the core's unscoped buffers
  when the region is entered.
-/
import proofs.«145981_j27745488732276_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's staging buffer: its pieces read back (none: a placeholder nothing consults, the window being idle and not written back there). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) : Vec F S1024x1024 .f32 :=
  VO1_3.read (Elt F) (VO1_3.writes (Elt F) VO1_3.junk (kernelRun1_A c i arg3 harg3 arg4 harg4 arg5 harg5 arg6 harg6 arg7 harg7 hc0 hc1 x0 x1).1)

/-- Case A's pieces for the accumulator cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 arg7 harg7 hc0 hc1 x0 x1).2.1, y ∈ pc.1.set :=
  View.cover_of_tiledL (kernelRun1_A c i arg3 harg3 arg4 harg4 arg5 harg5 arg6 harg6 arg7 harg7 hc0 hc1 x0 x1).2.1 S1024x1024.size (by sl_kernel_rfl) y

/-- What case A leaves in the accumulator: its pieces read back. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) : Vec F S1024x1024 .f32 :=
  VS1.read (Elt F) (VS1.writes (Elt F) VS1.junk (kernelRun1_A c i arg3 harg3 arg4 harg4 arg5 harg5 arg6 harg6 arg7 harg7 hc0 hc1 x0 x1).2.1)

/-- What case B leaves in the output window's staging buffer: its pieces read back (none: a placeholder nothing consults, the window being idle and not written back there). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 xs).1)

/-- Case B's pieces for the accumulator cover it. -/
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) (y : S1024x1024.Idx) :
    ∃ pc ∈ (kernelRun1_B c i arg3 harg3 arg4 harg4 arg5 harg5 arg6 harg6 arg7 harg7 hc0 hc1 x0 x1 xs).2.1, y ∈ pc.1.set :=
  View.cover_of_tiledL (kernelRun1_B c i arg3 harg3 arg4 harg4 arg5 harg5 arg6 harg6 arg7 harg7 hc0 hc1 x0 x1 xs).2.1 S1024x1024.size (by sl_kernel_rfl) y

/-- What case B leaves in the accumulator: its pieces read back. -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 xs).2.1)

/-- The output block's pieces at a point with k = 3 cover it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y

/-- What case C leaves in the output window's staging buffer: its pieces read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs).1)

/-- Case C's pieces for the accumulator cover it. -/
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y

/-- What case C leaves in the accumulator: its pieces read back. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

variable (V : (c : Dev nD) → (b : Ref sig .tc) → Buf (Elt F) ((c : Thread nD τ).loc b))

/-! ## What the output buffer and the accumulator hold after each point -/

/-- After the body at position n: the output window's staging buffer and the accumulator, by the case k = n % 4 selects,
    run at the point's memrefs and input blocks, the accumulator found at what position n - 1 left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: before the first point what the region is entered with (the accumulator at anything);
    afterwards the other scoped buffers at anything, the accumulator at what the point before left, and the
    generator register at some state. -/
def PhiS1 (c : Dev nD) : (n : ℕ) → n ≤ cfg1.N → sProp 𝕄
  | 0, _ => Pipeline.ΦA spec1 c
  | n + 1, hn => iprop(scopedWith (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

/-- The accumulator's ownership handed back by a run, read as contents: pieces that cover it read back the same
    through any view of the buffer. -/
theorem scratch_back (c : Dev nD) (LS : List (View.Piece (Elt F) S1024x1024 .f32)) (hcov : ∀ y : S1024x1024.Idx, ∃ pc ∈ LS, y ∈ pc.1.set) :
    iprop(∃ f, scM1.view.loc (c : Thread nD τ) ↦[scM1.view.set]{fullShare} scM1.view.writes (Elt F) f LS)
      ⊢ (owns (c : Thread nD τ) scM1 fullShare (VS1.read (Elt F) (VS1.writes (Elt F) VS1.junk LS)) : sProp 𝕄) := by
  iintro ⟨%es, HS⟩
  unfold owns; iexists _; isplitr
  swap; · iexact HS
  ipureintro; exact View.read_writes_of_cover _ _ _ _ _ hcov

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    have hrun := (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.2
    have hcov := scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)
    by_cases hz : t.val = 0
    · rw [PhiS1_castSucc V c t, PhiS1_zero V c _ _ hz, PhiA1_eq]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      have hrun := (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
      have hcov := scover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
      have hcovO := cover1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ hcovO
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hrun := (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2.2
      have hcov := scover1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (scopedWith_split c _) $$ HSc
      icases HSc' with ⟨HO, HS⟩
      iapply (hrun _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO HS]
        · iapply (scopedWith_join c _)
          isplitl [HO]; · iexact HO
          iapply (scratch_back c _ hcov); iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨HSc, Hg⟩
  isplitl [HSc]
  · ihave H := (scopedWith_split c _) $$ HSc
    icases H with ⟨HO, HS⟩
    iapply (scopedWith_join c _)
    isplitl [HO]; · iexact HO
    iexists _; iexact HS
  iexact Hg

end Cert.KernelIdeal.Hand

end
-- ==== Proof.KI.Run.lean ====
/-
  The whole run of the program: a reshape of the weight on the host, the dequantization region, a reshape of its
  result on the host, the accumulating matrix-product region. The contents of the core's unscoped buffers at each
  of the five boundaries are a fold from the launch memory (W0 .. W4): a host stretch applies its operations, a
  region leaves its arrays at what its write-backs leave and every other buffer as entered. Every weakly fair
  execution terminates with every unscoped buffer at W4 (run_all); the four argument arrays read back through the
  fold to their launch contents (W4_main_arg0 .. 3), which is the frame claim, and the result array is what the
  second region's write-backs leave (W4_main_v3).
-/
import proofs.«145981_j27745488732276_1_alg».proof.Proof.KI.R0
import proofs.«145981_j27745488732276_1_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch: the dequantization region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the dequantization region's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: the matrix-product region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the matrix-product region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The arguments end as launched, and the result is the second region's

    No host operation writes an argument; a region reads one through an input window, whose array its write-backs
    leave as entered, or bypasses it. -/

theorem W1_keep (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_keep (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (E3 m) c).arrAt_in 0 rfl _).trans (A_eq1 (E3 m) c 0))
    _ = W2 m c (Proc.devRef .tc main_arg0) := W3_keep m c main_arg0 (by decide)
    _ = W1 m c (Proc.devRef .tc main_arg0) := W2_of_ne m c main_arg0 (by decide)
    _ = W0 m c (Proc.devRef .tc main_arg0) := W1_keep m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_of_ne m c main_arg1 (by decide)
    _ = W0 m c (Proc.devRef .tc main_arg1) := W1_keep m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = W1 m c (Proc.devRef .tc main_arg2) := (W2_arr m c 1).trans (((dat0 (E1 m) c).arrAt_in 1 rfl _).trans (A_eq0 (E1 m) c 1))
    _ = W0 m c (Proc.devRef .tc main_arg2) := W1_keep m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (E3 m) c).arrAt_in 2 rfl _).trans (A_eq1 (E3 m) c 2))
    _ = W2 m c (Proc.devRef .tc main_arg3) := W3_keep m c main_arg3 (by decide)
    _ = W1 m c (Proc.devRef .tc main_arg3) := W2_of_ne m c main_arg3 (by decide)
    _ = W0 m c (Proc.devRef .tc main_arg3) := W1_keep m c main_arg3 (by decide)
    _ = m ((c : Thread nD τ).loc main_arg3) := rfl
/-- The result array holds what the matrix-product region's write-backs leave. -/
theorem W4_main_v3 (c : Dev nD) : W4 m c (Proc.devRef .tc main_v3) = (dat1 (E3 m) c).arrAt 3 cfg1.N := W4_arr m c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W4, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The dequantization region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at W3, left at W4. Its invariant carries the
    accumulator; it is entered with the scoped rest and the generator register and gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hops0_fresh (W0 m)),
    .region (reg0 m),
    .host (hseg hostOps1 hostOps1_sub hops1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the four argument arrays and the result array. -/
theorem run_main : θ_run defs (onTc (τ := τ) (main (F := F))) ⟨m, fun _ => 0, ρ⟩ (fun r => ∀ c : Dev nD,
      r.2.mem ((c.tc : Thread nD τ).loc main_v3) = (dat1 (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The frame claim: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KI.Host.lean ====
/-
  The two reshapes the host does around the regions, read at an index, and the buffers the regions are entered with
  that nothing before them has written. Entry (n, kb, kk) of the weight viewed as [4096, 32, 128] is entry
  (n, 128 kb + kk) of the weight; entry (n, k) of the dequantized weight viewed as [4096, 4096] is entry
  (n, k / 128, k % 128) of the first region's result. The x array, the scales and the bias reach the regions as launched.
-/
import proofs.«145981_j27745488732276_1_alg».proof.Proof.KI.Run
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The first region is entered with the weight reshaped to [4096, 32, 128]. -/
theorem E1_v0 (c : Dev nD) :
    (E1 m c main_v0 : S4096x32x128.Idx → Elt F .f32)
      = shapeCast S4096x32x128 (m ((c : Thread nD τ).loc main_arg1)) shapeCasts_S4096x4096_S4096x32x128 := by
  show StableHlo.after hostOps0 (fun b => m (c, b)) (Proc.devRef .tc main_v0) = _
  after_results; rfl

theorem E1_v0_apply (c : Dev nD) (n : Fin 4096) (kb : Fin 32) (kk : Fin 128) :
    E1 m c main_v0 (ix3 n kb kk)
      = m ((c : Thread nD τ).loc main_arg1) (ix2 n ⟨128 * kb.val + kk.val, by have := kb.isLt; have := kk.isLt; omega⟩) := by
  rw [E1_v0]
  exact shapeCast_apply _ _ (ix3 n kb kk) (ix2 n ⟨128 * kb.val + kk.val, by have := kb.isLt; have := kk.isLt; omega⟩)
    (by rewrite [Shape.rowMajor_val_two, Shape.rowMajor_val_three]
        show n.val * 4096 + (128 * kb.val + kk.val) = (n.val * 32 + kb.val) * 128 + kk.val
        omega)

/-- The scales reach the first region as launched. -/
theorem E1_arg2 (c : Dev nD) : E1 m c main_arg2 = m ((c : Thread nD τ).loc main_arg2) :=
  (W1_keep m c main_arg2 (by decide)).trans rfl

/-- The second region is entered with the first region's result reshaped to [4096, 4096]. -/
theorem E3_v2 (c : Dev nD) :
    (E3 m c main_v2 : S4096x4096.Idx → Elt F .bf16)
      = shapeCast S4096x4096 (W2 m c (Proc.devRef .tc main_v1)) shapeCasts_S4096x32x128_S4096x4096 := by
  show StableHlo.after hostOps1 (W2 m c) (Proc.devRef .tc main_v2) = _
  after_results; rfl

theorem E3_v2_apply (c : Dev nD) (n k : Fin 4096) :
    E3 m c main_v2 (ix2 n k)
      = W2 m c (Proc.devRef .tc main_v1) (ix3 n ⟨k.val / 128, by have := k.isLt; omega⟩ ⟨k.val % 128, Nat.mod_lt _ (by decide)⟩) := by
  rw [E3_v2]
  exact shapeCast_apply _ _ (ix2 n k) (ix3 n ⟨k.val / 128, by have := k.isLt; omega⟩ ⟨k.val % 128, Nat.mod_lt _ (by decide)⟩)
    (by rewrite [Shape.rowMajor_val_three, Shape.rowMajor_val_two]
        show (n.val * 32 + k.val / 128) * 128 + k.val % 128 = n.val * 4096 + k.val
        omega)

/-- The x array and the bias reach the second region as launched. -/
theorem E3_arg0 (c : Dev nD) : E3 m c main_arg0 = m ((c : Thread nD τ).loc main_arg0) :=
  (W3_keep m c main_arg0 (by decide)).trans ((W2_of_ne m c main_arg0 (by decide)).trans ((W1_keep m c main_arg0 (by decide)).trans rfl))
theorem E3_arg3 (c : Dev nD) : E3 m c main_arg3 = m ((c : Thread nD τ).loc main_arg3) :=
  (W3_keep m c main_arg3 (by decide)).trans ((W2_of_ne m c main_arg3 (by decide)).trans ((W1_keep m c main_arg3 (by decide)).trans rfl))

end Cert.KernelIdeal.Val

end
-- ==== Proof.Spec.lean ====
/-
  The result both programs compute, as one function of the four argument arrays over the extended reals.

  With x : [8192, 4096], wq : [4096, 4096], sc : [32, 32] (one scale per 128 x 128 block of wq) and b : [4096]:

      out[t, n] = (sum over k < 4096 of  x[t, k] * (wq[n, k] * sc[n / 128, k / 128]))  +  b[n]        (Gat)

  and the same number grouped as the K-blocked accumulation computes it, four partial sums of 1024 terms added in
  order onto a zero accumulator, then the bias:

      out[t, n] = ((((0 + S 0) + S 1) + S 2) + S 3) + b[n],   S kb = sum over kk < 1024 of the term at k = 1024 kb + kk   (Gblk)

  Extended-real addition is associative and commutative and 0 is its identity, so the two agree with no
  finiteness assumption (Gblk_eq_Gat, in Algebra.lean).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![8192, 4096]⟩
abbrev SW : Shape := ⟨2, ![4096, 4096]⟩
abbrev SS : Shape := ⟨2, ![32, 32]⟩
abbrev SB : Shape := ⟨1, ![4096]⟩

/-- The 128-block a row or column of the weight lies in. -/
def blk (n : Fin 4096) : Fin 32 := ⟨n.val / 128, by have := n.isLt; omega⟩

/-- The dequantized weight: entry (n, k) of wq times the scale of its 128 x 128 block. -/
def wdeq (wq : SW.Idx → EReal) (sc : SS.Idx → EReal) (n k : Fin 4096) : EReal :=
  wq (ix2 n k) * sc (ix2 (blk n) (blk k))

/-- One term of the contraction at column k. -/
def term (x : SX.Idx → EReal) (wq : SW.Idx → EReal) (sc : SS.Idx → EReal) (t : Fin 8192) (n k : Fin 4096) : EReal :=
  x (ix2 t k) * wdeq wq sc n k

/-- The result at row t, column n: the whole contraction plus the bias. -/
def Gat (x : SX.Idx → EReal) (wq : SW.Idx → EReal) (sc : SS.Idx → EReal) (b : SB.Idx → EReal) (t : Fin 8192) (n : Fin 4096) : EReal :=
  (∑ k : Fin 4096, term x wq sc t n k) + b (ix1 n)

/-- Column 1024 kb + kk of the contraction. -/
def col (kb : Fin 4) (kk : Fin 1024) : Fin 4096 := ⟨1024 * kb.val + kk.val, by have := kb.isLt; have := kk.isLt; omega⟩

/-- The partial sum over the kb-th run of 1024 columns. -/
def S (x : SX.Idx → EReal) (wq : SW.Idx → EReal) (sc : SS.Idx → EReal) (t : Fin 8192) (n : Fin 4096) (kb : Fin 4) : EReal :=
  ∑ kk : Fin 1024, term x wq sc t n (col kb kk)

/-- The result as the blocked accumulation leaves it: four partial sums added in order onto zero, then the bias. -/
def Gblk (x : SX.Idx → EReal) (wq : SW.Idx → EReal) (sc : SS.Idx → EReal) (b : SB.Idx → EReal) (t : Fin 8192) (n : Fin 4096) : EReal :=
  ((((0 + S x wq sc t n 0) + S x wq sc t n 1) + S x wq sc t n 2) + S x wq sc t n 3) + b (ix1 n)

/-- The whole result array: Gat at the index's two coordinates. -/
def G (x : SX.Idx → EReal) (wq : SW.Idx → EReal) (sc : SS.Idx → EReal) (b : SB.Idx → EReal) : SX.Idx → EReal :=
  fun i => Gat x wq sc b ⟨(i 0).val, idx2_lt0 i⟩ ⟨(i 1).val, idx2_lt1 i⟩

end Cert.Spec

end
-- ==== Proof.KI.V0.lean ====
/-
  What the dequantization region leaves in its result array, index by index, over the extended reals.

  The region's grid has 32 points. Point t stages rows 128 t .. 128 t + 127 of the weight viewed as [4096, 32, 128]
  and the whole 32 x 32 scale array; its body multiplies entry (p, kb, kk) of the weight block by entry (t, kb) of the
  scales (row t, reshaped to [1, 32, 1] and broadcast along the two outer axes); the format change to the narrower
  float is the identity on the extended reals. Row n of the array lies in the block of point n / 128, at row n % 128
  of it, so the 32 blocks tile the array and entry (n, kb, kk) of the result is

      weight (n, kb, kk) * scale (n / 128, kb).
-/
import proofs.«145981_j27745488732276_1_alg».proof.Proof.KI.R0
import proofs.«145981_j27745488732276_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.Sem
open Idealize.ShloMosaic.Pipeline (Dat Cfg Window)

/-! ## The body's arithmetic at an index -/

/-- Entry (p, kb, kk) of the body's product: the weight block's entry times entry (0, kb) of the loaded scale row
    (the row goes [1, 32] to [32] to [1, 32, 1] keeping its row-major position, then is repeated along the two
    outer axes; the change of format is the identity on the extended reals). -/
theorem deq_pay_apply (v1 : Vec Ideal S1x32 .f32) (v6 : Vec Ideal S128x32x128 .f32) (p : Fin 128) (kb : Fin 32) (kk : Fin 128) :
    k0_pay1 v1 v6 (ix3 p kb kk) = v6 (ix3 p kb kk) * v1 (ix2 0 kb) := by
  unfold k0_pay1
  rw [truncf_apply, mulf_apply, shapeCast_self, shapeCast_self]
  congr 1
  rw [broadcastTo_apply _ _ _ (ix3 (0 : Fin 1) kb (0 : Fin 1)) ?_, shapeCast_apply _ _ _ (ix1 kb) ?_, shapeCast_apply _ _ _ (ix2 (0 : Fin 1) kb) ?_]
  · rw [Shape.rowMajor_val_two, Shape.rowMajor_val_one]
    show (0 : Nat) * 32 + kb.val = kb.val
    omega
  · rw [Shape.rowMajor_val_one, Shape.rowMajor_val_three]
    show kb.val = ((0 : Nat) * 32 + kb.val) * 1 + 0
    omega
  · intro a
    match a with
    | ⟨0, _⟩ => rfl
    | ⟨1, _⟩ => rfl
    | ⟨2, _⟩ => rfl

private theorem hz : (![0, 0, 0] : Fin 3 → Nat) = fun _ => 0 := funext fun a => by fin_cases a <;> rfl

/-- The scale row the body loads, at (0, kb), is entry (r, kb) of the scale array when the load starts at (r, 0). -/
theorem deq_row_apply (x1 : Vec Ideal S32x32 .f32) (i : grid0.Coords) (r : Fin 32) (h0 : k0_off1 i 0 = r.val) (h1 : k0_off1 i 1 = 0) (kb : Fin 32) :
    View.ld x1 (r0_row i) (ix2 0 kb) = x1 (ix2 r kb) := by
  show x1 _ = x1 _
  congr 1
  funext a
  apply Fin.ext
  match a with
  | ⟨0, _⟩ => show k0_off1 i 0 + 1 * 0 = r.val; omega
  | ⟨1, _⟩ => show k0_off1 i 1 + 1 * kb.val = kb.val; omega

/-- The output block after the body, at (p, kb, kk): the weight block's entry times entry (r, kb) of the scales. -/
theorem deq_out_apply (i : grid0.Coords) (x0 : Vec Ideal S128x32x128 .f32) (x1 : Vec Ideal S32x32 .f32) (r : Fin 32)
    (h0 : k0_off1 i 0 = r.val) (h1 : k0_off1 i 1 = 0) (p : Fin 128) (kb : Fin 32) (kk : Fin 128) :
    out0_2 i x0 x1 (ix3 p kb kk) = x0 (ix3 p kb kk) * x1 (ix2 r kb) := by
  unfold out0_2
  rw [View.canon_unit_zero hz, View.ld_unit_zero (S := S128x32x128) hz, deq_pay_apply, deq_row_apply x1 i r h0 h1]

/-! ## The index maps over the grid -/

/-- At point t the weight's and the result's block index is (t, 0, 0), the scales' is (0, 0), and the body's load
    of the scale row starts at (t, 0). -/
theorem deq_idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ k0_off1 (grid0.coords t) (0 : Fin 2) = t.val ∧ k0_off1 (grid0.coords t) (1 : Fin 2) = 0 :=
  (by decide +kernel : ∀ t : Fin grid0.N, _)

private theorem idx3_lt0 {n0 n1 n2 : Nat} (j : (⟨3, ![n0, n1, n2]⟩ : Shape).Idx) : (j 0).val < n0 := (j 0).isLt
private theorem idx3_lt1 {n0 n1 n2 : Nat} (j : (⟨3, ![n0, n1, n2]⟩ : Shape).Idx) : (j 1).val < n1 := (j 1).isLt
private theorem idx3_lt2 {n0 n1 n2 : Nat} (j : (⟨3, ![n0, n1, n2]⟩ : Shape).Idx) : (j 2).val < n2 := (j 2).isLt

variable (V : (c : Dev nD) → (b : Ref sig .tc) → Buf (Elt Ideal) ((c : Thread nD τ).loc b))

/-! ## The result array -/

/-- Entry (n, kb, kk) of the reshaped weight times scale (n / 128, kb): a product of extended reals. -/
def deqArr (c : Dev nD) : Buf (Elt Ideal) ((c : Thread nD τ).loc main_v1) :=
  fun (j : S4096x32x128.Idx) => @HMul.hMul EReal EReal EReal _ (V c main_v0 j)
    (V c main_arg2 (ix2 (Cert.Spec.blk ⟨(j 0).val, idx3_lt0 j⟩) ⟨(j 1).val, idx3_lt1 j⟩))

theorem deqArr_apply (c : Dev nD) (n : Fin 4096) (kb : Fin 32) (kk : Fin 128) :
    deqArr V c (ix3 n kb kk) = @HMul.hMul EReal EReal EReal _ (V c main_v0 (ix3 n kb kk)) (V c main_arg2 (ix2 (Cert.Spec.blk n) kb)) := rfl

/-! ## The blocks read off their arrays -/

/-- The weight's block at point t, at (p, kb, kk), is the weight at row 128 t + p. -/
theorem deq_wblk_apply (c : Dev nD) (t : Fin cfg0.N) (p : Fin 128) (kb : Fin 32) (kk : Fin 128) (n : Fin 4096) (hn : n.val = 128 * t.val + p.val) :
    (iblk0 V c 0 t : Vec Ideal S128x32x128 .f32) (ix3 p kb kk) = V c main_v0 (ix3 n kb kk) := by
  obtain ⟨e0, e1, e2, -⟩ := deq_idx_facts t
  unfold iblk0
  rw [View.read_apply]
  show V c main_v0 _ = V c main_v0 _
  congr 1
  funext a
  apply Fin.ext
  match a with
  | ⟨0, _⟩ => show win0_0.index t (0 : Fin 3) * 128 + 1 * p.val = n.val; omega
  | ⟨1, _⟩ => show win0_0.index t (1 : Fin 3) * 32 + 1 * kb.val = kb.val; omega
  | ⟨2, _⟩ => show win0_0.index t (2 : Fin 3) * 128 + 1 * kk.val = kk.val; omega

/-- The scales' block at any point is the scale array. -/
theorem deq_sblk_apply (c : Dev nD) (t : Fin cfg0.N) (r kb : Fin 32) :
    (iblk0 V c 1 t : Vec Ideal S32x32 .f32) (ix2 r kb) = V c main_arg2 (ix2 r kb) := by
  obtain ⟨-, -, -, e0, e1, -⟩ := deq_idx_facts t
  unfold iblk0
  rw [View.read_apply]
  show V c main_arg2 _ = V c main_arg2 _
  congr 1
  funext a
  apply Fin.ext
  match a with
  | ⟨0, _⟩ => show win0_1.index t (0 : Fin 2) * 32 + 1 * r.val = r.val; omega
  | ⟨1, _⟩ => show win0_1.index t (1 : Fin 2) * 32 + 1 * kb.val = kb.val; omega

/-! ## What a point writes back, and the array after the run -/

/-- What point t writes back is its block of the result array. -/
theorem deq_flushed_eq (c : Dev nD) (t : Fin cfg0.N) :
    (dat0 (F := Ideal) V c).flushed 2 t = ((cfg0.win 2).blk t).view.read (Elt Ideal) (deqArr V c) := by
  show (cfg0.win 2).cut (grid0.coords t) ((dat0 V c).after 2 t) = _
  rw [after0_2]
  have hN : cfg0.N = 32 := N_0
  have ht : t.val < 32 := hN ▸ t.isLt
  obtain ⟨-, -, -, -, -, e0, e1, e2, o0, o1⟩ := deq_idx_facts t
  funext j
  obtain ⟨p, kb, kk, rfl⟩ : ∃ (p : Fin 128) (kb : Fin 32) (kk : Fin 128), j = ix3 p kb kk := ⟨j 0, j 1, j 2, eq_ix3 j⟩
  show out0_2 (grid0.coords t) (iblk0 V c 0 t) (iblk0 V c 1 t) (ix3 p kb kk) = deqArr V c (((cfg0.win 2).blk t).view.emb (ix3 p kb kk))
  have hemb : ((cfg0.win 2).blk t).view.emb (ix3 p kb kk) = (ix3 (⟨128 * t.val + p.val, by have := p.isLt; omega⟩ : Fin 4096) kb kk : S4096x32x128.Idx) := by
    funext a
    apply Fin.ext
    match a with
    | ⟨0, _⟩ => show win0_2.index t (0 : Fin 3) * 128 + 1 * p.val = 128 * t.val + p.val; omega
    | ⟨1, _⟩ => show win0_2.index t (1 : Fin 3) * 32 + 1 * kb.val = kb.val; omega
    | ⟨2, _⟩ => show win0_2.index t (2 : Fin 3) * 128 + 1 * kk.val = kk.val; omega
  have hb : Cert.Spec.blk ⟨128 * t.val + p.val, by have := p.isLt; omega⟩ = (⟨t.val, ht⟩ : Fin 32) :=
    Fin.ext (by show (128 * t.val + p.val) / 128 = t.val; have := p.isLt; omega)
  rw [hemb, deqArr_apply, hb, deq_out_apply (grid0.coords t) _ _ ⟨t.val, ht⟩ o0 o1,
    deq_wblk_apply V c t p kb kk ⟨128 * t.val + p.val, by have := p.isLt; omega⟩ rfl, deq_sblk_apply]

/-- An index of the result array is in point t's block iff each coordinate is in the block's range on its axis. -/
theorem deq_mem_blk (t : Fin cfg0.N) (i : S4096x32x128.Idx) :
    i ∈ ((cfg0.win 2).blk t).view.set ↔ ∀ a : Fin 3, win0_2.index t a * S128x32x128.size a ≤ (i a).val ∧ (i a).val < win0_2.index t a * S128x32x128.size a + S128x32x128.size a := by
  show i ∈ ((View.whole main_v1).slice (win0_2.rect t)).set ↔ _
  rw [View.set_slice_whole, Rect.mem_set_unit]
  exact Iff.rfl

/-- Row n of the result array lies in the block of point n / 128. -/
theorem deq_cover (i : S4096x32x128.Idx) : ∃ t : Fin cfg0.N, (cfg0.win 2).flush t = true ∧ i ∈ ((cfg0.win 2).blk t).view.set := by
  have hN : cfg0.N = 32 := N_0
  have h0 : (i 0).val < 4096 := idx3_lt0 i
  have h1 : (i 1).val < 32 := idx3_lt1 i
  have h2 : (i 2).val < 128 := idx3_lt2 i
  refine ⟨⟨(i 0).val / 128, by rw [hN]; omega⟩, flush0_2 _, ?_⟩
  obtain ⟨-, -, -, -, -, e0, e1, e2, -⟩ := deq_idx_facts ⟨(i 0).val / 128, by rw [hN]; omega⟩
  rw [deq_mem_blk]
  intro a
  match a with
  | ⟨0, _⟩ => show win0_2.index _ (0 : Fin 3) * 128 ≤ (i 0).val ∧ (i 0).val < win0_2.index _ (0 : Fin 3) * 128 + 128; rw [e0]; show (i 0).val / 128 * 128 ≤ (i 0).val ∧ (i 0).val < (i 0).val / 128 * 128 + 128; omega
  | ⟨1, _⟩ => show win0_2.index _ (1 : Fin 3) * 32 ≤ (i 1).val ∧ (i 1).val < win0_2.index _ (1 : Fin 3) * 32 + 32; rw [e1]; omega
  | ⟨2, _⟩ => show win0_2.index _ (2 : Fin 3) * 128 ≤ (i 2).val ∧ (i 2).val < win0_2.index _ (2 : Fin 3) * 128 + 128; rw [e2]; omega

/-- The result array after the region's last point: the weight times its block's scale, index by index. -/
theorem deq_final (c : Dev nD) : (dat0 (F := Ideal) V c).arrAt 2 cfg0.N = deqArr V c :=
  (dat0 (F := Ideal) V c).arrAt_eq_of_cover 2 (deqArr V c) (fun t _ => deq_flushed_eq V c t) deq_cover

end Cert.KernelIdeal.Val

end
-- ==== Proof.KI.V1Pay.lean ====
/-
  The matrix-product body's three stored values, read at an index over the extended reals: the reset stores zero;
  the accumulation stores the accumulator plus the product of the x block and the weight block contracted over
  their second axes; the epilogue stores the accumulator plus the bias block broadcast along the rows.
-/
import proofs.«145981_j27745488732276_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx
open scoped BigOperators

/-! ## The product's operand indices, axis by axis -/

/-- The left operand's row is the output's row. -/
private theorem lhs_k1_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction coordinate. -/
private theorem lhs_k1_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row is the output's column. -/
private theorem rhs_k1_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction coordinate. -/
private theorem rhs_k1_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator at (p, q): the sum over kk of a[p, kk] * b[q, kk]. -/
private theorem mm_k1_apply (a b : FVec Ideal S1024x1024 .bf16) (p q : Fin 1024) :
    matmul dot_S1024x1024_S1024x1024_S1024x1024_1_1_0_0_n_n none a b (constant (F := Ideal) S1024x1024 .f32 0x00000000#32) (ix2 p q)
      = ∑ kk : Fin 1024, a (ix2 p kk) * b (ix2 q kk) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun c => Fin.ext (by
    match c with
    | ⟨0, _⟩ => exact lhs_k1_0 _ _
    | ⟨1, _⟩ => exact (lhs_k1_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun c => Fin.ext (by
    match c with
    | ⟨0, _⟩ => exact rhs_k1_0 _ _
    | ⟨1, _⟩ => exact (rhs_k1_1 _ _).trans hk)
  rw [el, er]

/-- The reset's value is zero everywhere. -/
theorem pay1_apply (p q : Fin 1024) : k1_pay1 (F := Ideal) (ix2 p q) = 0 := by
  unfold k1_pay1
  refine (congrFun (shapeCast_self _ _) _).trans ?_
  exact Ideal.ofBits_zero_f32

/-- The accumulation's value at (p, q): the accumulator there plus the sum over kk of x0[p, kk] * x1[q, kk]. -/
theorem pay2_apply (x0 : Vec Ideal S1024x1024 .f32) (x1 : Vec Ideal S1024x1024 .bf16) (xs : Vec Ideal S1024x1024 .f32) (p q : Fin 1024) :
    k1_pay2 x0 x1 xs (ix2 p q) = xs (ix2 p q) + ∑ kk : Fin 1024, x0 (ix2 p kk) * x1 (ix2 q kk) := by
  unfold k1_pay2
  refine (congrFun (shapeCast_self _ _) _).trans ?_
  refine (addf_apply _ _ _).trans ?_
  refine congrArg (xs (ix2 p q) + ·) ?_
  refine (mm_k1_apply _ _ p q).trans ?_
  refine Finset.sum_congr rfl fun kk _ => ?_
  exact congrArg (x0 (ix2 p kk) * ·) (congrFun (shapeCast_self x1 _) _)

/-- The epilogue's value at (p, q): the accumulator there plus the bias at q. -/
theorem pay3_apply (x2 : Vec Ideal S1024 .f32) (v : Vec Ideal S1024x1024 .f32) (p q : Fin 1024) :
    k1_pay3 x2 v (ix2 p q) = v (ix2 p q) + x2 (ix1 q) := by
  unfold k1_pay3
  refine (addf_apply _ _ _).trans ?_
  refine congrArg (v (ix2 p q) + ·) ?_
  refine (broadcastTo_apply _ broadcasts_S1x1024_S1024x1024 (ix2 p q) (ix2 (⟨0, by decide⟩ : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])).trans ?_
  refine (congrFun (shapeCast_self _ _) _).trans ?_
  exact shapeCast_apply x2 shapeCasts_S1024_S1x1024 (ix2 (⟨0, by decide⟩ : Fin 1) q) (ix1 q)
    (by rewrite [Shape.rowMajor_val_one, Shape.rowMajor_val_two]; show q.val = 0 * 1024 + q.val; omega)

end Cert.KernelIdeal.Val

end
-- ==== Proof.KI.V1Blk.lean ====
/-
  The matrix-product region's input blocks, read where the index maps say. Point t of the 8 x 4 x 4 grid is
  (i, j, k) = (t / 16, t / 4 % 4, t % 4): the x block covers rows 1024 i .. and columns 1024 k ..; the weight block
  rows 1024 j .. and columns 1024 k ..; the bias block entries 1024 j ..; the output block rows 1024 i .. and
  columns 1024 j ... A block's coordinate is the block index times the block size plus the coordinate inside.
-/
import proofs.«145981_j27745488732276_1_alg».proof.Proof.KI.R1Defs
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The four index maps at every grid point, decided over the grid. -/
theorem idx1_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4)

/-- The x block at point t, at (p, kk), is x at row 1024 (t / 16) + p, column 1024 (t % 4) + kk. -/
theorem xblk_apply (c : Dev nD) (t : Fin cfg1.N) (p kk : Fin 1024) (T : Fin 8192) (k : Fin 4096)
    (hT : T.val = 1024 * (t.val / 16) + p.val) (hk : k.val = 1024 * (t.val % 4) + kk.val) :
    (iblk1 V c 0 t : Vec F S1024x1024 .f32) (ix2 p kk) = V c main_arg0 (ix2 T k) := by
  obtain ⟨e0, e1, -⟩ := idx1_facts t
  unfold iblk1
  rw [View.read_apply]
  show V c main_arg0 _ = V c main_arg0 _
  congr 1
  funext a
  apply Fin.ext
  match a with
  | ⟨0, _⟩ => show win1_0.index t (0 : Fin 2) * 1024 + 1 * p.val = T.val; omega
  | ⟨1, _⟩ => show win1_0.index t (1 : Fin 2) * 1024 + 1 * kk.val = k.val; omega

/-- The weight block at point t, at (q, kk), is the weight at row 1024 (t / 4 % 4) + q, column 1024 (t % 4) + kk. -/
theorem wblk_apply (c : Dev nD) (t : Fin cfg1.N) (q kk : Fin 1024) (n k : Fin 4096)
    (hn : n.val = 1024 * (t.val / 4 % 4) + q.val) (hk : k.val = 1024 * (t.val % 4) + kk.val) :
    (iblk1 V c 1 t : Vec F S1024x1024 .bf16) (ix2 q kk) = V c main_v2 (ix2 n k) := by
  obtain ⟨-, -, e0, e1, -⟩ := idx1_facts t
  unfold iblk1
  rw [View.read_apply]
  show V c main_v2 _ = V c main_v2 _
  congr 1
  funext a
  apply Fin.ext
  match a with
  | ⟨0, _⟩ => show win1_1.index t (0 : Fin 2) * 1024 + 1 * q.val = n.val; omega
  | ⟨1, _⟩ => show win1_1.index t (1 : Fin 2) * 1024 + 1 * kk.val = k.val; omega

/-- The bias block at point t, at q, is the bias at 1024 (t / 4 % 4) + q. -/
theorem bblk_apply (c : Dev nD) (t : Fin cfg1.N) (q : Fin 1024) (n : Fin 4096)
    (hn : n.val = 1024 * (t.val / 4 % 4) + q.val) :
    (iblk1 V c 2 t : Vec F S1024 .f32) (ix1 q) = V c main_arg3 (ix1 n) := by
  obtain ⟨-, -, -, -, e0, -⟩ := idx1_facts t
  unfold iblk1
  rw [View.read_apply]
  show V c main_arg3 _ = V c main_arg3 _
  congr 1
  funext a
  apply Fin.ext
  match a with
  | ⟨0, _⟩ => show win1_2.index t (0 : Fin 1) * 1024 + 1 * q.val = n.val; omega

end Cert.KernelIdeal.Val

end
-- ==== Proof.Spec2.lean ====
/-
  The blocked accumulation over a generic weight array: with X : [8192, 4096], Wd : [4096, 4096], B : [4096],

      mmAt X Wd B t n = ((((0 + P 0) + P 1) + P 2) + P 3) + B[n],   P kb = sum over kk < 1024 of X[t, 1024 kb + kk] * Wd[n, 1024 kb + kk].

  With Wd the dequantized weight it is Gblk of the specification.
-/
import proofs.«145981_j27745488732276_1_alg».proof.Proof.Spec

noncomputable section

namespace Cert.Spec

open Idealize.ShloMosaic Idealize.ShloMosaic.ValueIdx
open scoped BigOperators

/-- The partial product over the kb-th run of 1024 columns. -/
def part (X : SX.Idx → EReal) (Wd : SW.Idx → EReal) (t : Fin 8192) (n : Fin 4096) (kb : Fin 4) : EReal :=
  ∑ kk : Fin 1024, X (ix2 t (col kb kk)) * Wd (ix2 n (col kb kk))

/-- Four partial products added in order onto zero, then the bias. -/
def mmAt (X : SX.Idx → EReal) (Wd : SW.Idx → EReal) (B : SB.Idx → EReal) (t : Fin 8192) (n : Fin 4096) : EReal :=
  ((((0 + part X Wd t n 0) + part X Wd t n 1) + part X Wd t n 2) + part X Wd t n 3) + B (ix1 n)

/-- If the weight array is the dequantized weight entry by entry, the blocked accumulation is Gblk. -/
theorem mmAt_eq_Gblk (x : SX.Idx → EReal) (wq : SW.Idx → EReal) (sc : SS.Idx → EReal) (b : SB.Idx → EReal) (Wd : SW.Idx → EReal)
    (hW : ∀ n k : Fin 4096, Wd (ix2 n k) = wdeq wq sc n k) (t : Fin 8192) (n : Fin 4096) :
    mmAt x Wd b t n = Gblk x wq sc b t n := by
  unfold mmAt Gblk part S term
  simp only [hW]

end Cert.Spec

end
-- ==== Proof.KI.V1.lean ====
/-
  What the accumulating matrix-product region leaves in its result array, entry by entry over the extended reals, for
  arbitrary contents V of the core's unscoped buffers when the region is entered.

  The grid is 8 x 4 x 4 points (i, j, k), k fastest: point t is (t / 16, t / 4 % 4, t % 4). A run of four consecutive
  points 4 m .. 4 m + 3 shares (i, j). Its first point (k = 0) stores zero into the 1024 x 1024 accumulator and adds
  the product of its x block and weight block, contracted over their second axes; the next three add theirs onto what
  the point before left; the last (k = 3) also stores the accumulator plus the bias block, broadcast along the rows,
  into the output buffer, which is written back to block (i, j) of the result array at exactly those points. So entry
  (T, n) of the result array, written at the point (T / 1024, n / 1024, 3), ends at

      ((((0 + part 0) + part 1) + part 2) + part 3) + bias[n],
      part kb = sum over kk < 1024 of x[T, 1024 kb + kk] * w[n, 1024 kb + kk],

  the partial products added in point order (Cert.Spec.mmAt). The four steps of a run are chained at a symbolic
  point; the grid's 128 points are never enumerated.
-/
import proofs.«145981_j27745488732276_1_alg».proof.Proof.KI.R1
import proofs.«145981_j27745488732276_1_alg».proof.Proof.KI.V1Pay
import proofs.«145981_j27745488732276_1_alg».proof.Proof.KI.V1Blk
import proofs.«145981_j27745488732276_1_alg».proof.Proof.Spec2
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each case of the body leaves in the accumulator and in the output buffer, as values (any float instance) -/

section Pieces
variable {F : FTy → Type} [FloatOps F]

/-- The zero offsets of a rank-2 whole-buffer rectangle, however spelt. -/
theorem mm_hz : (![0, 0] : Fin 2 → Nat) = fun _ => 0 := funext fun a => by fin_cases a <;> rfl
/-- The zero offset of a rank-1 whole-buffer rectangle. -/
theorem mm_hz1 : (![0] : Fin 1 → Nat) = fun _ => 0 := funext fun a => by fin_cases a; rfl

/-- At a point with k = 1 or 2 the accumulator, found at xs, is left at xs plus the product of the point's blocks:
    one covering store, whose loads read the whole buffers. -/
theorem mm_sout_B (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x1024 .f32) (x1 : Vec F S1024x1024 .bf16) (xs : Vec F S1024x1024 .f32) :
    sout1_B c i a3 h3 a4 h4 a5 h5 a6 h6 a7 h7 hc0 hc1 x0 x1 xs = k1_pay2 x0 x1 xs := by
  unfold sout1_B
  rw [View.read_writes_eq_canon _ _ _ (scover1_B c i a3 h3 a4 h4 a5 h5 a6 h6 a7 h7 hc0 hc1 x0 x1 xs)]
  unfold kernelRun1_B
  dsimp only
  sl_unfold_words
  rw [View.canon_unit_zero mm_hz]
  simp only [View.readAt_eq_ld, h3.read_unread, h4.read_unread, h7.read_unread, View.ld_unit_zero (S := S1024x1024) mm_hz, shapeCast_self]

/-- At a point with k = 0 the accumulator is first stored at zero; the load that follows reads that zero back, and the
    covering store leaves zero plus the product. -/
theorem mm_sout_A (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x1024 .f32) (x1 : Vec F S1024x1024 .bf16) :
    sout1_A c i a3 h3 a4 h4 a5 h5 a6 h6 a7 h7 hc0 hc1 x0 x1 = k1_pay2 x0 x1 k1_pay1 := by
  unfold sout1_A
  rw [View.read_writes_eq_canon _ _ _ (scover1_A c i a3 h3 a4 h4 a5 h5 a6 h6 a7 h7 hc0 hc1 x0 x1)]
  unfold kernelRun1_A
  dsimp only
  sl_unfold_words
  rw [View.canon_cons_unit_zero (S := S1024x1024) mm_hz]
  simp only [View.readAt_eq_ld, h3.read_unread, h4.read_unread, View.readCov_unit_zero (S := S1024x1024) _ mm_hz, View.ld_unit_zero (S := S1024x1024) mm_hz, shapeCast_self]

/-- At a point with k = 3 the accumulator is left as at k = 1 or 2. -/
theorem mm_sout_C (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x1024 .f32) (x1 : Vec F S1024x1024 .bf16) (x2 : Vec F S1024 .f32) (xs : Vec F S1024x1024 .f32) :
    sout1_C c i a3 h3 a4 h4 a5 h5 a6 h6 a7 h7 hc0 hc1 x0 x1 x2 xs = k1_pay2 x0 x1 xs := by
  unfold sout1_C
  rw [View.read_writes_eq_canon _ _ _ (scover1_C c i a3 h3 a4 h4 a5 h5 a6 h6 a7 h7 hc0 hc1 x0 x1 x2 xs)]
  unfold kernelRun1_C
  dsimp only
  sl_unfold_words
  rw [View.canon_unit_zero mm_hz]
  simp only [View.readAt_eq_ld, h3.read_unread, h4.read_unread, h7.read_unread, View.ld_unit_zero (S := S1024x1024) mm_hz, shapeCast_self]

/-- At a point with k = 3 the output buffer is left at the bias block broadcast along the rows added to the accumulator
    just stored, which the epilogue's load reads back. -/
theorem mm_out_C (c : Dev nD) (i : grid1.Coords) (a3 : Memref sig .tc .vmem S1024x1024 .f32) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x1024 .f32) (x1 : Vec F S1024x1024 .bf16) (x2 : Vec F S1024 .f32) (xs : Vec F S1024x1024 .f32) :
    out1_C_3 c i a3 h3 a4 h4 a5 h5 a6 h6 a7 h7 hc0 hc1 x0 x1 x2 xs = k1_pay3 x2 (k1_pay2 x0 x1 xs) := by
  unfold out1_C_3
  rw [View.read_writes_eq_canon _ _ _ (cover1_C_3 c i a3 h3 a4 h4 a5 h5 a6 h6 a7 h7 hc0 hc1 x0 x1 x2 xs)]
  unfold kernelRun1_C
  dsimp only
  sl_unfold_words
  rw [View.canon_unit_zero mm_hz]
  simp only [View.readAt_eq_ld, h3.read_unread, h4.read_unread, h5.read_unread, h7.read_unread, View.readCov_unit_zero (S := S1024x1024) _ mm_hz, View.ld_unit_zero (S := S1024x1024) mm_hz, View.ld_unit_zero (S := S1024) mm_hz1, shapeCast_self]

end Pieces

/-! ## The accumulator and the output buffer after a point, index by index over the extended reals -/

section Acc
variable (V : (c : Dev nD) → (b : Ref sig .tc) → Buf (Elt Ideal) ((c : Thread nD τ).loc b))

/-- The x block, the weight block and the bias block at a point, as the region finds them. -/
abbrev mm_xb (c : Dev nD) (t : Fin cfg1.N) : Vec Ideal S1024x1024 .f32 := iblk1 V c 0 t
abbrev mm_wb (c : Dev nD) (t : Fin cfg1.N) : Vec Ideal S1024x1024 .bf16 := iblk1 V c 1 t
abbrev mm_bb (c : Dev nD) (t : Fin cfg1.N) : Vec Ideal S1024 .f32 := iblk1 V c 2 t

/-- The product of the point's two blocks at (p, q): row p of the x block against row q of the weight block. -/
def mm_P (c : Dev nD) (t : Fin cfg1.N) (p q : Fin 1024) : EReal :=
  ∑ kk : Fin 1024, mm_xb V c t (ix2 p kk) * mm_wb V c t (ix2 q kk)

/-- The accumulator after a point, as a block of extended reals. -/
abbrev mm_acc (c : Dev nD) (n : ℕ) (hn : n < cfg1.N) : Vec Ideal S1024x1024 .f32 := (outsAt1 V c n hn).2
/-- The output buffer after a point. -/
abbrev mm_out (c : Dev nD) (n : ℕ) (hn : n < cfg1.N) : Vec Ideal S1024x1024 .f32 := (outsAt1 V c n hn).1

/-- After a point with k = 0 the accumulator holds zero plus the point's product. -/
theorem mm_acc_reset (c : Dev nD) (n : ℕ) (hn : n < cfg1.N) (h0 : n % 4 = 0) (p q : Fin 1024) :
    mm_acc V c n hn (ix2 p q) = 0 + mm_P V c ⟨n, hn⟩ p q := by
  have h1 : ¬(⟨n, hn⟩ : Fin cfg1.N).val % 4 = 3 := by dsimp only; omega
  show (outsAt1 V c (⟨n, hn⟩ : Fin cfg1.N).val (⟨n, hn⟩ : Fin cfg1.N).isLt).2 (ix2 p q) = _
  rw [outsAt1_A V c ⟨n, hn⟩ h0 h1]; dsimp only
  refine (congrFun (mm_sout_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) ((hcond1_0 ⟨n, hn⟩).mpr h0) (fun h => h1 ((hcond1_1 ⟨n, hn⟩).mp h)) (mm_xb V c ⟨n, hn⟩) (mm_wb V c ⟨n, hn⟩)) (ix2 p q)).trans ?_
  refine (pay2_apply (mm_xb V c ⟨n, hn⟩) (mm_wb V c ⟨n, hn⟩) (k1_pay1 (F := Ideal)) p q).trans ?_
  rw [pay1_apply p q]; rfl

/-- After a point with k ≠ 0 the accumulator holds what the point before left plus the point's product. -/
theorem mm_acc_step (c : Dev nD) (n : ℕ) (hn : n < cfg1.N) (h0 : ¬n % 4 = 0) (hp : n - 1 < cfg1.N) (p q : Fin 1024) :
    mm_acc V c n hn (ix2 p q) = mm_acc V c (n - 1) hp (ix2 p q) + mm_P V c ⟨n, hn⟩ p q := by
  show (outsAt1 V c (⟨n, hn⟩ : Fin cfg1.N).val (⟨n, hn⟩ : Fin cfg1.N).isLt).2 (ix2 p q) = _
  by_cases h1 : n % 4 = 3
  · rw [outsAt1_C V c ⟨n, hn⟩ h0 h1]; dsimp only
    refine (congrFun (mm_sout_C (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) ((hcond1_1 ⟨n, hn⟩).mpr h1) (mm_xb V c ⟨n, hn⟩) (mm_wb V c ⟨n, hn⟩) (mm_bb V c ⟨n, hn⟩) (mm_acc V c (n - 1) hp)) (ix2 p q)).trans ?_
    exact pay2_apply (mm_xb V c ⟨n, hn⟩) (mm_wb V c ⟨n, hn⟩) (mm_acc V c (n - 1) hp) p q
  · rw [outsAt1_B V c ⟨n, hn⟩ h0 h1]; dsimp only
    refine (congrFun (mm_sout_B (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) (fun h => h1 ((hcond1_1 ⟨n, hn⟩).mp h)) (mm_xb V c ⟨n, hn⟩) (mm_wb V c ⟨n, hn⟩) (mm_acc V c (n - 1) hp)) (ix2 p q)).trans ?_
    exact pay2_apply (mm_xb V c ⟨n, hn⟩) (mm_wb V c ⟨n, hn⟩) (mm_acc V c (n - 1) hp) p q

/-- After a point with k = 3 the output buffer holds what the point before left in the accumulator, plus the point's
    product, plus the bias block at the column. -/
theorem mm_out_flush (c : Dev nD) (n : ℕ) (hn : n < cfg1.N) (h1 : n % 4 = 3) (hp : n - 1 < cfg1.N) (p q : Fin 1024) :
    mm_out V c n hn (ix2 p q) = (mm_acc V c (n - 1) hp (ix2 p q) + mm_P V c ⟨n, hn⟩ p q) + mm_bb V c ⟨n, hn⟩ (ix1 q) := by
  have h0 : ¬(⟨n, hn⟩ : Fin cfg1.N).val % 4 = 0 := by dsimp only; omega
  show (outsAt1 V c (⟨n, hn⟩ : Fin cfg1.N).val (⟨n, hn⟩ : Fin cfg1.N).isLt).1 (ix2 p q) = _
  rw [outsAt1_C V c ⟨n, hn⟩ h0 h1]; dsimp only
  refine (congrFun (mm_out_C (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) ((hcond1_1 ⟨n, hn⟩).mpr h1) (mm_xb V c ⟨n, hn⟩) (mm_wb V c ⟨n, hn⟩) (mm_bb V c ⟨n, hn⟩) (mm_acc V c (n - 1) hp)) (ix2 p q)).trans ?_
  refine (pay3_apply (mm_bb V c ⟨n, hn⟩) (k1_pay2 (mm_xb V c ⟨n, hn⟩) (mm_wb V c ⟨n, hn⟩) (mm_acc V c (n - 1) hp)) p q).trans ?_
  rw [pay2_apply (mm_xb V c ⟨n, hn⟩) (mm_wb V c ⟨n, hn⟩) (mm_acc V c (n - 1) hp) p q]; rfl

/-- So at a point n with k = 3 the output buffer holds the four products of the run n - 3 … n added in order onto
    zero, then the bias: the run's first point resets, the next three accumulate, the last adds the bias. -/
theorem mm_out_run (c : Dev nD) (n : ℕ) (hn : n < cfg1.N) (h1 : n % 4 = 3) (h3 : n - 3 < cfg1.N) (h2 : n - 2 < cfg1.N) (hp : n - 1 < cfg1.N)
    (p q : Fin 1024) :
    mm_out V c n hn (ix2 p q)
      = ((((0 + mm_P V c ⟨n - 3, h3⟩ p q) + mm_P V c ⟨n - 2, h2⟩ p q) + mm_P V c ⟨n - 1, hp⟩ p q) + mm_P V c ⟨n, hn⟩ p q) + mm_bb V c ⟨n, hn⟩ (ix1 q) := by
  have e1 : n - 1 - 1 = n - 2 := by omega
  have e2 : n - 2 - 1 = n - 3 := by omega
  rw [mm_out_flush V c n hn h1 hp p q,
    mm_acc_step V c (n - 1) hp (by omega) (by rw [e1]; exact h2) p q]
  simp only [e1]
  rw [mm_acc_step V c (n - 2) h2 (by omega) (by rw [e2]; exact h3) p q]
  simp only [e2]
  rw [mm_acc_reset V c (n - 3) h3 (by omega) p q]

end Acc

/-! ## The result array after the region -/

section Final
variable (V : (c : Dev nD) → (b : Ref sig .tc) → Buf (Elt Ideal) ((c : Thread nD τ).loc b))

/-- The x array, the weight array and the bias array as the region finds them, as functions of their indices. -/
abbrev mm_xarr (c : Dev nD) : Cert.Spec.SX.Idx → EReal := V c main_arg0
abbrev mm_warr (c : Dev nD) : Cert.Spec.SW.Idx → EReal := V c main_v2
abbrev mm_barr (c : Dev nD) : Cert.Spec.SB.Idx → EReal := V c main_arg3

/-- What the region leaves in its result array: at (t, n) the four partial products of row t of x against row n of
    the weight array, added in order onto zero, then the bias at n. -/
def mmArr (c : Dev nD) : Buf (Elt Ideal) ((c : Thread nD τ).loc main_v3) :=
  fun (i : Cert.Spec.SX.Idx) => Cert.Spec.mmAt (mm_xarr V c) (mm_warr V c) (mm_barr V c) ⟨(i 0).val, idx2_lt0 i⟩ ⟨(i 1).val, idx2_lt1 i⟩

/-- The result array at (t, n), over explicit coordinates. -/
theorem mmArr_apply (c : Dev nD) (t : Fin 8192) (n : Fin 4096) :
    mmArr V c (ix2 t n) = Cert.Spec.mmAt (V c main_arg0) (V c main_v2) (V c main_arg3) t n := rfl

/-- The product of the blocks at the kb-th point of the run that covers (T, n), at the entry's place in the block, is
    the kb-th partial product of row T of x against row n of the weight array: the point is
    (T / 1024, n / 1024, kb), so its x block holds columns 1024 kb … of rows 1024 (T / 1024) … and its weight block
    the same columns of rows 1024 (n / 1024) …. -/
theorem mm_P_eq_part (c : Dev nD) (T : Fin 8192) (n : Fin 4096) (kb : Fin 4) (s : Fin cfg1.N)
    (hs : s.val = 16 * (T.val / 1024) + 4 * (n.val / 1024) + kb.val) (p q : Fin 1024)
    (hp : p.val = T.val % 1024) (hq : q.val = n.val % 1024) :
    mm_P V c s p q = Cert.Spec.part (mm_xarr V c) (mm_warr V c) T n kb := by
  unfold mm_P Cert.Spec.part
  refine Finset.sum_congr rfl fun kk _ => ?_
  have hc : (Cert.Spec.col kb kk).val = 1024 * kb.val + kk.val := rfl
  have hkb := kb.isLt
  have hTl := T.isLt
  have hnl := n.isLt
  have hx := xblk_apply V c s p kk T (Cert.Spec.col kb kk) (by omega) (by omega)
  have hw := wblk_apply V c s q kk n (Cert.Spec.col kb kk) (by omega) (by omega)
  exact congrArg₂ (· * ·) hx hw

/-- What a point with k = 3 writes back is its block of the result array. -/
theorem mm_flushed_eq (c : Dev nD) (t : Fin cfg1.N) (h3 : t.val % 4 = 3) :
    (dat1 V c).flushed 3 t = ((cfg1.win 3).blk t).view.read (Elt Ideal) (mmArr V c) := by
  have hN : cfg1.N = 128 := N_1
  have htl : t.val < 128 := lt_of_lt_of_eq t.isLt hN
  obtain ⟨-, -, -, -, -, e0, e1⟩ := idx1_facts t
  refine funext fun (y : S1024x1024.Idx) => ?_
  obtain ⟨p, q, rfl⟩ : ∃ (p q : Fin 1024), y = ix2 p q := ⟨y 0, y 1, eq_ix2 y⟩
  have hpl := p.isLt
  have hql := q.isLt
  -- the entry's row and column in the result array
  let T : Fin 8192 := ⟨1024 * (t.val / 16) + p.val, by omega⟩
  let n : Fin 4096 := ⟨1024 * (t.val / 4 % 4) + q.val, by omega⟩
  have hT : T.val = 1024 * (t.val / 16) + p.val := rfl
  have hn : n.val = 1024 * (t.val / 4 % 4) + q.val := rfl
  show (cfg1.win 3).cut (grid1.coords t) ((dat1 V c).after 3 t) (ix2 p q) = _
  rw [after1_3]
  show mm_out V c t.val t.isLt ((cfg1.win 3).xinj (grid1.coords t) (ix2 p q)) = _
  rw [show (cfg1.win 3).xinj (grid1.coords t) (ix2 p q) = (ix2 p q : S1024x1024.Idx) from
    funext fun a => by match a with | ⟨0, _⟩ => rfl | ⟨1, _⟩ => rfl]
  rw [View.read_apply]
  show _ = mmArr V c _
  have hemb : ((cfg1.win 3).blk t).view.emb (ix2 p q) = (ix2 T n : Cert.Spec.SX.Idx) := by
    funext a
    apply Fin.ext
    match a with
    | ⟨0, _⟩ => show win1_3.index t (0 : Fin 2) * 1024 + 1 * p.val = T.val; omega
    | ⟨1, _⟩ => show win1_3.index t (1 : Fin 2) * 1024 + 1 * q.val = n.val; omega
  rw [hemb, mmArr_apply]
  have h3' : t.val - 3 < cfg1.N := by omega
  have h2' : t.val - 2 < cfg1.N := by omega
  have h1' : t.val - 1 < cfg1.N := by omega
  refine (mm_out_run V c t.val t.isLt h3 h3' h2' h1' p q).trans ?_
  unfold Cert.Spec.mmAt
  rw [mm_P_eq_part V c T n 0 ⟨t.val - 3, h3'⟩ (by show t.val - 3 = _; omega) p q (by omega) (by omega),
    mm_P_eq_part V c T n 1 ⟨t.val - 2, h2'⟩ (by show t.val - 2 = _; omega) p q (by omega) (by omega),
    mm_P_eq_part V c T n 2 ⟨t.val - 1, h1'⟩ (by show t.val - 1 = _; omega) p q (by omega) (by omega),
    mm_P_eq_part V c T n 3 ⟨t.val, t.isLt⟩ (by show t.val = _; omega) p q (by omega) (by omega)]
  exact congrArg _ (bblk_apply V c t q n hn)

/-- Every entry (T, n) of the result array is written back at the point (T / 1024, n / 1024, 3), so the array ends at
    the blocked accumulation everywhere. -/
theorem mm_final (c : Dev nD) : (dat1 (F := Ideal) V c).arrAt 3 cfg1.N = mmArr V c :=
  (dat1 V c).arrAt_eq_of_cover 3 (mmArr V c) (fun t hf => mm_flushed_eq V c t ((flush1_3 t).mp hf)) fun (i : Cert.Spec.SX.Idx) => by
    have hN : cfg1.N = 128 := N_1
    have h0 : (i 0).val < 8192 := idx2_lt0 i
    have h1 : (i 1).val < 4096 := idx2_lt1 i
    let t : Fin cfg1.N := ⟨16 * ((i 0).val / 1024) + 4 * ((i 1).val / 1024) + 3, by omega⟩
    have ht : t.val = 16 * ((i 0).val / 1024) + 4 * ((i 1).val / 1024) + 3 := rfl
    obtain ⟨-, -, -, -, -, e0, e1⟩ := idx1_facts t
    refine ⟨t, (flush1_3 t).mpr (by omega), ?_⟩
    show i ∈ ((View.whole main_v3).slice (win1_3.rect t)).set
    rw [View.set_slice_whole, Rect.mem_set_unit]
    intro a
    match a with
    | ⟨0, _⟩ =>
      show win1_3.index t (0 : Fin 2) * 1024 ≤ (i 0).val ∧ (i 0).val < win1_3.index t (0 : Fin 2) * 1024 + 1024
      omega
    | ⟨1, _⟩ =>
      show win1_3.index t (1 : Fin 2) * 1024 ≤ (i 1).val ∧ (i 1).val < win1_3.index t (1 : Fin 2) * 1024 + 1024
      omega

end Final

end Cert.KernelIdeal.Val

end
-- ==== Proof.Algebra.lean ====
/-
  The regrouping law over the extended reals.

  A sum over 4096 columns is the sum of its four consecutive runs of 1024 columns, added left to right
  (sum_blocks): extended-real addition is associative and commutative, so a finite sum may be cut at any point,
  and no finiteness of the terms is needed. With 0 + y = y for the zero accumulator this identifies the blocked
  accumulation Gblk with the plain contraction Gat (Gblk_eq_Gat).
-/
import proofs.«145981_j27745488732276_1_alg».proof.Proof.Spec
import Mathlib.Algebra.BigOperators.Fin
import Mathlib.Data.EReal.Basic

noncomputable section

namespace Cert.Spec

open Idealize.ShloMosaic Idealize.ShloMosaic.ValueIdx
open scoped BigOperators

/-- In any additive commutative monoid, a sum over (((1024 + 1024) + 1024) + 1024) indices cut three times at
    the ends of the runs: the last run first, then the third, then the second. -/
private theorem sum_cut4 {M : Type*} [AddCommMonoid M] (g : Fin (((1024 + 1024) + 1024) + 1024) → M) :
    (∑ k, g k)
      = (((∑ i : Fin 1024, g (Fin.castAdd 1024 (Fin.castAdd 1024 (Fin.castAdd 1024 i))))
          + ∑ i : Fin 1024, g (Fin.castAdd 1024 (Fin.castAdd 1024 (Fin.natAdd 1024 i))))
          + ∑ i : Fin 1024, g (Fin.castAdd 1024 (Fin.natAdd (1024 + 1024) i)))
          + ∑ i : Fin 1024, g (Fin.natAdd ((1024 + 1024) + 1024) i) := by
  rw [Fin.sum_univ_add, Fin.sum_univ_add, Fin.sum_univ_add]

/-- The columns of run 0 are the first 1024 indices. -/
private theorem col0_eq (i : Fin 1024) :
    (Fin.castAdd 1024 (Fin.castAdd 1024 (Fin.castAdd 1024 i)) : Fin 4096) = col 0 i := by
  apply Fin.ext; simp [col]

/-- The columns of run 1 are the indices 1024 + i. -/
private theorem col1_eq (i : Fin 1024) :
    (Fin.castAdd 1024 (Fin.castAdd 1024 (Fin.natAdd 1024 i)) : Fin 4096) = col 1 i := by
  apply Fin.ext; simp [col]; omega

/-- The columns of run 2 are the indices 2048 + i. -/
private theorem col2_eq (i : Fin 1024) :
    (Fin.castAdd 1024 (Fin.natAdd (1024 + 1024) i) : Fin 4096) = col 2 i := by
  apply Fin.ext; simp [col]

/-- The columns of run 3 are the indices 3072 + i. -/
private theorem col3_eq (i : Fin 1024) :
    (Fin.natAdd ((1024 + 1024) + 1024) i : Fin 4096) = col 3 i := by
  apply Fin.ext; simp [col]

/-- A sum over the 4096 columns is the four partial sums over the runs of 1024 columns, added in order. -/
theorem sum_blocks (f : Fin 4096 → EReal) :
    (∑ k : Fin 4096, f k)
      = (((∑ kk : Fin 1024, f (col 0 kk)) + ∑ kk : Fin 1024, f (col 1 kk)) + ∑ kk : Fin 1024, f (col 2 kk))
          + ∑ kk : Fin 1024, f (col 3 kk) := by
  have h := sum_cut4 (M := EReal) f
  simp only [col0_eq, col1_eq, col2_eq, col3_eq] at h
  exact h

/-- The blocked accumulation computes the plain contraction plus bias: drop the zero accumulator and regroup. -/
theorem Gblk_eq_Gat (x : SX.Idx → EReal) (wq : SW.Idx → EReal) (sc : SS.Idx → EReal) (b : SB.Idx → EReal)
    (t : Fin 8192) (n : Fin 4096) : Gblk x wq sc b t n = Gat x wq sc b t n := by
  unfold Gblk Gat S
  rw [zero_add, sum_blocks (term x wq sc t n)]

end Cert.Spec

end
-- ==== Proof.KI.Value.lean ====
/-
  The idealized kernel's result array, index by index over the extended reals, is the specification G of the four
  argument arrays. The second region is entered with the x array and the bias as launched and with the dequantized
  weight: entry (n, k) of the first region's result reshaped is wq[n, k] * sc[n / 128, k / 128]. What the second
  region's write-backs leave is the blocked accumulation of those, which regrouped is the whole contraction plus
  the bias.
-/
import proofs.«145981_j27745488732276_1_alg».proof.Proof.KI.Host
import proofs.«145981_j27745488732276_1_alg».proof.Proof.KI.V0
import proofs.«145981_j27745488732276_1_alg».proof.Proof.KI.V1
import proofs.«145981_j27745488732276_1_alg».proof.Proof.Spec2
import proofs.«145981_j27745488732276_1_alg».proof.Proof.Algebra

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The weight array the second region is entered with is the dequantized weight, entry by entry. -/
theorem wd_eq (c : Dev nD) (n k : Fin 4096) :
    E3 m c main_v2 (ix2 n k) = Cert.Spec.wdeq (m ((c : Thread nD τ).loc main_arg1)) (m ((c : Thread nD τ).loc main_arg2)) n k := by
  rw [E3_v2_apply]
  have h2 : W2 m c (Proc.devRef .tc main_v1) = deqArr (E1 m) c := (W2_arr m c 2).trans (deq_final (E1 m) c)
  rw [h2, deqArr_apply, E1_v0_apply, E1_arg2]
  unfold Cert.Spec.wdeq
  have hk : (⟨128 * (k.val / 128) + k.val % 128, by have := k.isLt; omega⟩ : Fin 4096) = k := Fin.ext (by show 128 * (k.val / 128) + k.val % 128 = k.val; omega)
  rw [hk]
  rfl

/-- The result array after the run is G of the launch contents of the four arguments. -/
theorem kernel_value (c : Dev nD) :
    (dat1 (F := Ideal) (E3 m) c).arrAt 3 cfg1.N
      = Cert.Spec.G (m ((c : Thread nD τ).loc main_arg0)) (m ((c : Thread nD τ).loc main_arg1)) (m ((c : Thread nD τ).loc main_arg2)) (m ((c : Thread nD τ).loc main_arg3)) := by
  rw [mm_final]
  funext i
  obtain ⟨t, n, rfl⟩ : ∃ (t : Fin 8192) (n : Fin 4096), i = ix2 t n := ⟨i 0, i 1, eq_ix2 i⟩
  rw [mmArr_apply, E3_arg0, E3_arg3,
    Cert.Spec.mmAt_eq_Gblk _ (m ((c : Thread nD τ).loc main_arg1)) (m ((c : Thread nD τ).loc main_arg2)) _ _ (wd_eq m c) t n,
    Cert.Spec.Gblk_eq_Gat]
  rfl

end Cert.KernelIdeal.Val

end
-- ==== Proof.RefValue.lean ====
/-
  The reference program's result, read index by index over the extended reals, is the specification `Cert.Spec.G`
  whenever every entry of the activation array x is a real number.

  The reference quantizes x in blocks of 128 consecutive columns: with M the largest magnitude of a block,
  the block's scale is s = max (M / 448, c) for a fixed constant c > 0; each entry is divided by s, clipped to
  [-448, 448] and multiplied by s again. When the block's entries are reals, M is a real with |x| ≤ M for each
  entry x of the block, so s is a real, s ≥ c > 0 and 448 · s ≥ M ≥ |x|. Hence |x / s| ≤ 448, the clip does
  nothing, and (x / s) · s = x: the dequantized activations ARE the activations. The weight side is a product of
  entry (n, k) of wq with the scale of its 128 x 128 block, reached through two reshapes and two broadcasts, i.e.
  index arithmetic only; the bias is a broadcast along the rows. The contraction of the two and the bias added
  is `Cert.Spec.Gat`.
-/
import proofs.«145981_j27745488732276_1_alg».proof.Proof.Gen.ReferenceIdeal.Read
import proofs.«145981_j27745488732276_1_alg».proof.Proof.Spec
import Idealize.ShloMosaic.PureOps.Ideal
import Idealize.ShloMosaic.PureOps.Ideal.Laws
import Idealize.ShloMosaic.PureOps.Reduce
import Idealize.ShloMosaic.Lib.ValueIdx
import Mathlib.Data.Finset.Fold
import Mathlib.Data.EReal.Basic
import Mathlib.Data.EReal.Operations

noncomputable section

namespace Cert.ReferenceIdeal.RefVal

open Cert.ReferenceIdeal Cert.ReferenceIdeal.Gen Cert.ReferenceIdeal.Read Idealize.ShloMosaic Idealize.ShloMosaic.ValueIdx
open scoped BigOperators

/-! ### The four float constants of the program -/

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_neginf : Ideal.ofBits .f32 0xFF800000#32 = (⊥ : EReal) := by
  simp [Ideal.ofBits, Ideal.ieee]

/-- The floor of the scale is a positive real; its value is never needed. -/
theorem ofBits_floor : ∃ c : ℝ, 0 < c ∧ Ideal.ofBits .f32 0x2B8CBCCC#32 = (c : EReal) := by
  refine ⟨_, ?_, by simp [Ideal.ofBits, Ideal.ieee, -EReal.coe_mul]; rfl⟩
  positivity

/-! ### Extended-real arithmetic -/

/-- The maximum of finitely many reals, folded from −∞ over a non-empty index set, is a real and bounds each. -/
theorem fold_max_real {m : Nat} (hm : 0 < m) (f : Fin m → EReal) (hf : ∀ k, ∃ r : ℝ, f k = (r : EReal)) :
    ∃ M : ℝ, (Finset.univ : Finset (Fin m)).fold max (⊥ : EReal) f = (M : EReal) ∧ ∀ k, f k ≤ (M : EReal) := by
  have hle : ∀ k, f k ≤ (Finset.univ : Finset (Fin m)).fold max (⊥ : EReal) f := fun k =>
    (Finset.le_fold_max _).2 (Or.inr ⟨k, Finset.mem_univ k, le_rfl⟩)
  have htop : (Finset.univ : Finset (Fin m)).fold max (⊥ : EReal) f ≠ ⊤ := by
    refine ne_of_lt ((Finset.fold_max_lt _).2 ⟨bot_lt_top, fun k _ => ?_⟩)
    obtain ⟨r, hr⟩ := hf k; rw [hr]; exact EReal.coe_lt_top r
  have hbot : (Finset.univ : Finset (Fin m)).fold max (⊥ : EReal) f ≠ ⊥ := by
    obtain ⟨r, hr⟩ := hf ⟨0, hm⟩
    refine ne_of_gt (lt_of_lt_of_le ?_ (hle ⟨0, hm⟩))
    rw [hr]; exact EReal.bot_lt_coe r
  refine ⟨_, (EReal.coe_toReal htop hbot).symm, fun k => ?_⟩
  rw [EReal.coe_toReal htop hbot]; exact hle k

/-- The magnitude of a real, as the program forms it. -/
theorem max_neg_coe (x : ℝ) : max (x : EReal) (-(x : EReal)) = ((|x| : ℝ) : EReal) := by
  rw [← EReal.coe_neg, abs_eq_max_neg]
  exact (EReal.coe_strictMono.monotone.map_max).symm

/-- The scale max (M / 448, c) of a block whose magnitudes M bounds: a positive real with M ≤ 448 · s. -/
theorem scale_real (M c : ℝ) (hc : 0 < c) :
    ∃ s : ℝ, 0 < s ∧ max (Ideal.div (M : EReal) ((448 : ℝ) : EReal)) (c : EReal) = (s : EReal) ∧ M ≤ 448 * s := by
  refine ⟨max (M * (1 / 448)) c, lt_of_lt_of_le hc (le_max_right _ _), ?_, ?_⟩
  · rw [Ideal.div_coe (by norm_num), ← EReal.coe_mul]
    exact (EReal.coe_strictMono.monotone.map_max).symm
  · have := le_max_left (M * (1 / 448)) c; linarith

/-- Dividing by the scale, clipping to [-448, 448] and multiplying by the scale again gives back a real whose
    magnitude the scale covers. -/
theorem clip_div_mul (x s : ℝ) (hs : 0 < s) (hx : |x| ≤ 448 * s) :
    min ((448 : ℝ) : EReal) (max ((-448 : ℝ) : EReal) (Ideal.div (x : EReal) (s : EReal))) * (s : EReal) = (x : EReal) := by
  rw [Ideal.div_coe hs.ne', ← EReal.coe_mul]
  have hlo : (-448 : ℝ) ≤ x * (1 / s) := by
    rw [mul_one_div, le_div_iff₀ hs]; have := neg_abs_le x; linarith
  have hhi : x * (1 / s) ≤ 448 := by
    rw [mul_one_div, div_le_iff₀ hs]; have := le_abs_self x; linarith
  rw [max_eq_right (EReal.coe_le_coe_iff.2 hlo), min_eq_right (EReal.coe_le_coe_iff.2 hhi), ← EReal.coe_mul]
  congr 1; field_simp

/-! ### The weight side: index arithmetic through two reshapes and two broadcasts -/

section WSide
variable (x1 : (⟨S4096x4096, .f32⟩ : BufTy).Contents (Elt Ideal)) (x2 : (⟨S32x32, .f32⟩ : BufTy).Contents (Elt Ideal))

/-- Entry (n, k) of the 4096 x 4096 array sits at (n / 128, n % 128, k / 128, k % 128) of its four-axis view, and back. -/
theorem idx_w (n k : Fin 4096) : idx_main_v14 (idx_main_v18 (ix2 n k)) = ix2 n k := by
  have hn := n.isLt; have hk := k.isLt
  funext a; apply Fin.ext
  match a with
  | ⟨0, _⟩ => show (((((n.val * 4096 + k.val) / 524288) * 128 + (n.val * 4096 + k.val) / 4096 % 128) * 32 + (n.val * 4096 + k.val) / 128 % 32) * 128 + (n.val * 4096 + k.val) % 128) / 4096 = n.val; omega
  | ⟨1, _⟩ => show (((((n.val * 4096 + k.val) / 524288) * 128 + (n.val * 4096 + k.val) / 4096 % 128) * 32 + (n.val * 4096 + k.val) / 128 % 32) * 128 + (n.val * 4096 + k.val) % 128) % 4096 = k.val; omega

/-- The scale that entry (n, k) meets is the one of block (n / 128, k / 128). -/
theorem idx_sc (n k : Fin 4096) : idx_main_v15 (idx_main_v16 (idx_main_v18 (ix2 n k))) = ix2 (Spec.blk n) (Spec.blk k) := by
  have hn := n.isLt; have hk := k.isLt
  funext a; apply Fin.ext
  match a with
  | ⟨0, _⟩ => show (n.val * 4096 + k.val) / 524288 = n.val / 128; omega
  | ⟨1, _⟩ => show (n.val * 4096 + k.val) / 128 % 32 = k.val / 128; omega

/-- The dequantized weight the reference contracts with is the specification's. -/
theorem v18_eq (n k : Fin 4096) : val_main_v18 (F := Ideal) x1 x2 (ix2 n k) = Spec.wdeq x1 x2 n k := by
  rw [val_main_v18_apply, val_main_v17_apply, val_main_v14_apply, val_main_v16_apply, val_main_v15_apply, idx_w, idx_sc]
  rfl

end WSide

/-! ### The bias: a broadcast along the rows -/

theorem v21_eq (x3 : (⟨S4096, .f32⟩ : BufTy).Contents (Elt Ideal)) (i : S8192x4096.Idx) :
    val_main_v21 (F := Ideal) x3 i = x3 (ix1 (⟨(i 1).val, idx2_lt1 i⟩ : Fin 4096)) := by
  rw [val_main_v21_apply, val_main_v20_apply]
  exact congrArg x3 (funext fun a => by match a with | ⟨0, _⟩ => rfl)

/-! ### The activation side: quantize then dequantize is the identity on real entries -/

section XSide
variable (x0 : (⟨S8192x4096, .f32⟩ : BufTy).Contents (Elt Ideal))

/-- Splitting a row into 32 blocks of 128 and joining them again leaves every index where it was. -/
theorem idx_x (i : S8192x4096.Idx) : idx_main_v0 (idx_main_v13 i) = i := by
  have h0 := idx2_lt0 i; have h1 := idx2_lt1 i
  funext a; apply Fin.ext
  match a with
  | ⟨0, _⟩ => show (((((i 0).val * 4096 + (i 1).val) / 4096) * 32 + ((i 0).val * 4096 + (i 1).val) / 128 % 32) * 128 + ((i 0).val * 4096 + (i 1).val) % 128) / 4096 = (i 0).val; omega
  | ⟨1, _⟩ => show (((((i 0).val * 4096 + (i 1).val) / 4096) * 32 + ((i 0).val * 4096 + (i 1).val) / 128 % 32) * 128 + ((i 0).val * 4096 + (i 1).val) % 128) % 4096 = (i 1).val; omega

theorem reduces_d2 : S8192x32x128.Reduces [2] S8192x32 := by decide

/-- Block (p, q) with position k inside the block put back is (p, q, k). -/
theorem lift_ix3 (p : Fin 8192) (q : Fin 32) (k : Fin (S8192x32x128.size 2)) :
    reduces_d2.lift (ix2 p q) k = ix3 p q (⟨k.val, k.isLt⟩ : Fin 128) := by
  funext c; apply Fin.ext
  fin_cases c <;> rfl

/-- The block maximum at (p, q) is the maximum, from −∞, of the block's 128 magnitudes. -/
theorem v2_apply (p : Fin 8192) (q : Fin 32) :
    val_main_v2 (F := Ideal) x0 (ix2 p q)
      = (Finset.univ : Finset (Fin (S8192x32x128.size 2))).fold max (⊥ : EReal)
          (fun k => val_main_v1 (F := Ideal) x0 (ix3 p q (⟨k.val, k.isLt⟩ : Fin 128))) := by
  unfold val_main_v2
  refine (Host.reduce_eq_fold_single FloatOps.maximumf _ _ reducesTo_S8192x32x128_S8192x32_d2 reduces_d2 h_S_ (ix2 p q)).trans ?_
  have hf : (val_main_v1 (F := Ideal) x0 ∘ reduces_d2.lift (ix2 p q))
      = fun k => val_main_v1 (F := Ideal) x0 (ix3 p q (⟨k.val, k.isLt⟩ : Fin 128)) :=
    funext fun k => congrArg (val_main_v1 (F := Ideal) x0) (lift_ix3 p q k)
  rw [hf, val_main_cst_apply, Ideal.ofBits_def, ofBits_neginf]
  rfl

variable (hx : ∀ i, ∃ r : ℝ, x0 i = (r : EReal))
include hx

theorem v0_real (j : S8192x32x128.Idx) : ∃ r : ℝ, val_main_v0 (F := Ideal) x0 j = (r : EReal) := by
  rw [val_main_v0_apply]; exact hx _

omit hx in
theorem v1_eq (j : S8192x32x128.Idx) (r : ℝ) (h : val_main_v0 (F := Ideal) x0 j = (r : EReal)) :
    val_main_v1 (F := Ideal) x0 j = ((|r| : ℝ) : EReal) := by
  rw [val_main_v1_apply, h]; exact max_neg_coe r

/-- The scale of block (p, q) is a positive real s, and 448 · s bounds the magnitude of every entry of the block. -/
theorem v7_real (p : Fin 8192) (q : Fin 32) :
    ∃ s : ℝ, 0 < s ∧ val_main_v7 (F := Ideal) x0 (ix3 p q (0 : Fin 1)) = (s : EReal)
      ∧ ∀ (r : Fin 128) (xr : ℝ), val_main_v0 (F := Ideal) x0 (ix3 p q r) = (xr : EReal) → |xr| ≤ 448 * s := by
  obtain ⟨M, hM, hle⟩ := fold_max_real (m := S8192x32x128.size 2) (by decide)
    (fun k => val_main_v1 (F := Ideal) x0 (ix3 p q (⟨k.val, k.isLt⟩ : Fin 128)))
    (fun k => by
      obtain ⟨r, hr⟩ := v0_real x0 hx (ix3 p q (⟨k.val, k.isLt⟩ : Fin 128))
      exact ⟨|r|, v1_eq x0 _ r hr⟩)
  obtain ⟨c, hc, hcb⟩ := ofBits_floor
  obtain ⟨s, hs, hse, hMs⟩ := scale_real M c hc
  refine ⟨s, hs, ?_, fun r xr hxr => ?_⟩
  · have e3 : idx_main_v3 (ix3 p q (0 : Fin 1)) = ix2 p q :=
      funext fun a => by match a with | ⟨0, _⟩ => rfl | ⟨1, _⟩ => rfl
    rw [val_main_v7_apply, val_main_v5_apply, val_main_v3_apply, val_main_v4_apply, val_main_cst_0_apply,
      val_main_v6_apply, val_main_cst_1_apply, e3, v2_apply, hM]
    simp only [Ideal.ofBits_def, Ideal.maximumf_def, Ideal.hostDivf_def]
    rw [ofBits_448, hcb]; exact hse
  · have h1 := hle (⟨r.val, r.isLt⟩ : Fin (S8192x32x128.size 2))
    have h2 : val_main_v1 (F := Ideal) x0 (ix3 p q r) ≤ (M : EReal) := h1
    rw [v1_eq x0 _ xr hxr] at h2
    have h3 := EReal.coe_le_coe_iff.1 h2
    linarith

/-- On real entries the dequantized block is the block. -/
theorem v12_eq_v0 (j : S8192x32x128.Idx) : val_main_v12 (F := Ideal) x0 j = val_main_v0 (F := Ideal) x0 j := by
  obtain ⟨p, q, r, rfl⟩ : ∃ (p : Fin 8192) (q : Fin 32) (r : Fin 128), j = ix3 p q r := ⟨j 0, j 1, j 2, eq_ix3 j⟩
  obtain ⟨s, hs, hse, hcov⟩ := v7_real x0 hx p q
  obtain ⟨xr, hxr⟩ := v0_real x0 hx (ix3 p q r)
  have e8 : idx_main_v8 (ix3 p q r) = ix3 p q (0 : Fin 1) :=
    funext fun a => by match a with | ⟨0, _⟩ => rfl | ⟨1, _⟩ => rfl | ⟨2, _⟩ => rfl
  have e11 : idx_main_v11 (ix3 p q r) = ix3 p q (0 : Fin 1) :=
    funext fun a => by match a with | ⟨0, _⟩ => rfl | ⟨1, _⟩ => rfl | ⟨2, _⟩ => rfl
  rw [val_main_v12_apply, val_main_v10_apply, val_main_call0_v4_apply, val_main_call0_v3_apply, val_main_cst_3_apply,
    val_main_call0_v2_apply, val_main_call0_v1_apply, val_main_call0_v0_apply, val_main_cst_2_apply, val_main_v9_apply,
    val_main_v8_apply, val_main_v11_apply, e8, e11, hse, hxr]
  simp only [Ideal.ofBits_def, Ideal.mulf_def, Ideal.minimumf_def, Ideal.maximumf_def, Ideal.hostDivf_def]
  rw [ofBits_448, ofBits_neg448]
  exact clip_div_mul xr s hs (hcov r xr hxr)

/-- On real entries the dequantized activations are the activations. -/
theorem v13_eq (i : S8192x4096.Idx) : val_main_v13 (F := Ideal) x0 i = x0 i := by
  rw [val_main_v13_apply, v12_eq_v0 x0 hx, val_main_v0_apply]
  exact congrArg x0 (idx_x i)

end XSide

/-! ### The whole result -/

theorem ref_eq_spec (x0 : (⟨Cert.ReferenceIdeal.S8192x4096, .f32⟩ : BufTy).Contents (Elt Ideal)) (x1 : (⟨Cert.ReferenceIdeal.S4096x4096, .f32⟩ : BufTy).Contents (Elt Ideal)) (x2 : (⟨Cert.ReferenceIdeal.S32x32, .f32⟩ : BufTy).Contents (Elt Ideal)) (x3 : (⟨Cert.ReferenceIdeal.S4096, .f32⟩ : BufTy).Contents (Elt Ideal))
    (hx : ∀ i, ∃ r : ℝ, x0 i = (r : EReal)) :
    Cert.ReferenceIdeal.Read.val_main_v22 (F := Ideal) x0 x1 x2 x3 = Cert.Spec.G x0 x1 x2 x3 := by
  funext i
  have el : ∀ k : Fin 4096, lidx_main_v19 i k = ix2 (⟨(i 0).val, idx2_lt0 i⟩ : Fin 8192) k := fun k =>
    funext fun a => by match a with | ⟨0, _⟩ => rfl | ⟨1, _⟩ => rfl
  have er : ∀ k : Fin 4096, ridx_main_v19 i k = ix2 (⟨(i 1).val, idx2_lt1 i⟩ : Fin 4096) k := fun k =>
    funext fun a => by match a with | ⟨0, _⟩ => rfl | ⟨1, _⟩ => rfl
  rw [val_main_v22_apply, val_main_v19_apply, v21_eq]
  unfold Spec.G Spec.Gat Spec.term
  simp only [Ideal.addf_def]
  congr 1
  refine Finset.sum_congr rfl fun k _ => ?_
  rw [v13_eq x0 hx, el, er, v18_eq]

end Cert.ReferenceIdeal.RefVal

end
-- ==== Proof.RefFinite.lean ====
/-
  From the printed precondition to "every entry of the first argument is a real number".

  The precondition is the conjunction, over the four argument arrays, of "every entry a satisfies |a| < +inf",
  each conjunct a reduction by `and` over all axes of the entrywise comparison, and the hypothesis says this
  0-dimensional boolean array is 1. A conjunction that is 1 has both sides 1; a reduction by `and` over all axes
  that is 1 met a 1 at every entry; and an extended real a with max a (-a) < +inf is neither -inf nor +inf, so it
  is a real number. Only the first argument's conjunct is used.
-/
import proofs.«145981_j27745488732276_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Fin

open Idealize.ShloMosaic Idealize.ShloMosaic.ValueIdx Cert.Pre_finite_inputs

/-- The 0-dimensional shape has exactly one index. -/
instance subsingleton_S_Idx : Subsingleton S_.Idx := ⟨fun a b => funext fun d => d.elim0⟩

/-- The f32 word 0x7F800000 denotes +inf. -/
theorem ofBits_inf : Ideal.ofBits .f32 0x7F800000#32 = (⊤ : EReal) := by
  simp [Ideal.ofBits, Ideal.ieee]

/-- An extended real whose absolute value max a (-a) lies strictly below +inf is a real number:
    at a = -inf and at a = +inf the maximum is +inf, which is not below itself. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- Under the precondition every entry of the first argument is a real number. -/
theorem x_real_of_pre (x0 : FVec Ideal Cert.Pre_finite_inputs.S8192x4096 .f32) (x1 : FVec Ideal Cert.Pre_finite_inputs.S4096x4096 .f32)
    (x2 : FVec Ideal Cert.Pre_finite_inputs.S32x32 .f32) (x3 : FVec Ideal Cert.Pre_finite_inputs.S4096 .f32)
    (h : Cert.Pre_finite_inputs.fn (F := Ideal) x0 x1 x2 x3 = fun _ => 1#1) : ∀ i, ∃ r : ℝ, x0 i = (r : EReal) := by
  intro i
  -- the precondition at its one index: ((c0 and c1) and c2) and c3 = 1, with cK the reduction for argument K
  have h0 := congrFun h ValueIdx.ix0
  dsimp only [fn, fn_part1] at h0
  -- keep the left side of each conjunction, down to c0 = 1
  obtain ⟨h123, -⟩ := IntOp.andi_eq_one.1 h0
  obtain ⟨h12, -⟩ := IntOp.andi_eq_one.1 h123
  obtain ⟨h1, -⟩ := IntOp.andi_eq_one.1 h12
  -- a reduction by `and` over all axes that is 1 has a 1 at every entry: |x0 i| < +inf
  have he := Host.reduce_andi_all _ _ _ _ _ h1 i
  exact real_of_abs_lt_inf (x0 i) he

end Cert.Pre_finite_inputs.Fin

end
-- ==== Proof.lean ====
/-
  The certificate of a block-quantized matrix product against its reference.

  The kernel dequantizes the weight in one region (each 128 x 128 block of wq times its scale) and, in a second
  region, accumulates x times the dequantized weight transposed over four blocks of 1024 columns, adding the bias at
  the end. The reference first passes x through a per-block quantize and dequantize (divide by the block's scale
  s = max(max |x| / 448, c), clip to [-448, 448], multiply by s), then does the same dequantization of the weight, one
  whole contraction, and the bias.

  Over the extended reals the two agree wherever every entry of x is a real number, which the precondition gives:
  the block scale s is then a positive real, |x / s| is at most 448 so the clip does nothing, and (x / s) * s = x; the
  weight is dequantized by the same product on both sides; and the four partial sums added in order onto zero are the
  whole sum, because addition of extended reals is associative and commutative with 0 as identity. Both results are
  the one function Cert.Spec.G of the four argument arrays.

  The three frames: each kernel program runs to the end with its arguments unchanged because each region's body
  runs at every grid point from what the pipeline hands it (the second region's accumulator carried from point to
  point by the region's invariant) and no host operation or write-back touches an argument; the reference is a
  straight line of host operations. The ideal pass rewrote nothing, so the kernel's idealization is its own text.
-/
import proofs.«145981_j27745488732276_1_alg».proof.Defs
import proofs.«145981_j27745488732276_1_alg».proof.Proof.Gen.Kernel
import proofs.«145981_j27745488732276_1_alg».proof.Proof.Gen.KernelIdeal
import proofs.«145981_j27745488732276_1_alg».proof.Proof.Gen.ReferenceIdeal
import proofs.«145981_j27745488732276_1_alg».proof.Proof.Gen.Pre_finite_inputs
import proofs.«145981_j27745488732276_1_alg».proof.Proof.Gen.ReferenceIdeal.Run
import proofs.«145981_j27745488732276_1_alg».proof.Proof.Gen.ReferenceIdeal.Read
import proofs.«145981_j27745488732276_1_alg».proof.Proof.KB.Run
import proofs.«145981_j27745488732276_1_alg».proof.Proof.KI.Run
import proofs.«145981_j27745488732276_1_alg».proof.Proof.KI.Value
import proofs.«145981_j27745488732276_1_alg».proof.Proof.RefValue
import proofs.«145981_j27745488732276_1_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification G of the arguments in their result arrays: the kernel's by
    its run and the value of what its second region writes back, the reference's by its run read index by index,
    x being real entry by entry under the precondition. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.kernel_value m c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    have hx : ∀ i, ∃ r : ℝ, m' ((c.tc : Thread Cert.ReferenceIdeal.nD Cert.ReferenceIdeal.τ).loc Cert.ReferenceIdeal.main_arg0) i = (r : EReal) := by
      rw [(hagree c).1]
      exact Cert.Pre_finite_inputs.Fin.x_real_of_pre _ _ _ _ (hpre c)
    rw [(h c).1, Cert.ReferenceIdeal.Read.val_main_v22_eq, Cert.ReferenceIdeal.RefVal.ref_eq_spec _ _ _ _ hx,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
